-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S10x128 : Shape := ⟨2, ![10, 128]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S10x128 : S_.BroadcastsInDim S10x128 (![] : Fin 0 → Fin S10x128.rank)
  reducesTo_S10x128_S_d0_1 : S10x128.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S10x128 .f32) (main_arg10 : FVec F S10 .f32) (main_v33 : IVec S_ 1) : IVec S_ 1 :=
  let main_v34 : FVec F S10x128 .f32 := Host.absf main_arg9
  let main_cst_12 : FVec F S_ .f32 := constant S_ .f32 0x7F800000#32
  let main_v35 : FVec F S10x128 .f32 := broadcastInDim S10x128 ![] bcast_S_S10x128 main_cst_12
  let main_v36 : IVec S10x128 1 := cmpf .olt main_v34 main_v35
  let main_c_13 : IVec S_ 1 := constantI S_ 1 1#1
  let main_v37 : IVec S_ 1 := (fun x v => Host.reduce IntOp.andi x v reducesTo_S10x128_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S10x128 .f32) (main_arg10 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S10x128 .f32) (main_arg10 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S10x128 : Shape := ⟨2, ![10, 128]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S10000x128 : Shape := ⟨2, ![10000, 128]⟩
abbrev S100000x1 : Shape := ⟨2, ![100000, 1]⟩
abbrev S512x128 : Shape := ⟨2, ![512, 128]⟩
abbrev S10000x1 : Shape := ⟨2, ![10000, 1]⟩
abbrev S10000x512 : Shape := ⟨2, ![10000, 512]⟩
abbrev S512 : Shape := ⟨1, ![512]⟩
abbrev S512x1 : Shape := ⟨2, ![512, 1]⟩
abbrev S128x10 : Shape := ⟨2, ![128, 10]⟩
abbrev S512x10 : Shape := ⟨2, ![512, 10]⟩
abbrev S1x10 : Shape := ⟨2, ![1, 10]⟩

abbrev nBuf : Space → Nat
  | .hbm => 81
  | .vmem => 25
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S10x128, .f32⟩
  | .hbm, ⟨10, _⟩ => ⟨S10, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S128x128, .f32⟩
  | .hbm, ⟨29, _⟩ => ⟨S1x128, .f32⟩
  | .hbm, ⟨30, _⟩ => ⟨S100000x128, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S128x128, .f32⟩
  | .hbm, ⟨45, _⟩ => ⟨S1x128, .f32⟩
  | .hbm, ⟨46, _⟩ => ⟨S100000x128, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S128x128, .f32⟩
  | .hbm, ⟨61, _⟩ => ⟨S1x128, .f32⟩
  | .hbm, ⟨62, _⟩ => ⟨S100000x1, .i32⟩
  | .hbm, ⟨63, _⟩ => ⟨S512x128, .f32⟩
  | .hbm, ⟨64, _⟩ => ⟨S_, .f32⟩
  | .hbm, ⟨65, _⟩ => ⟨S100000, .f32⟩
  | .hbm, ⟨66, _⟩ => ⟨S_, .f32⟩
  | .hbm, ⟨67, _⟩ => ⟨S512, .f32⟩
  | .hbm, ⟨68, _⟩ => ⟨S100000x1, .i32⟩
  | .hbm, ⟨69, _⟩ => ⟨S512, .f32⟩
  | .hbm, ⟨70, _⟩ => ⟨S_, .f32⟩
  | .hbm, ⟨71, _⟩ => ⟨S512, .f32⟩
  | .hbm, ⟨72, _⟩ => ⟨S512, .f32⟩
  | .hbm, ⟨73, _⟩ => ⟨S512x1, .f32⟩
  | .hbm, ⟨74, _⟩ => ⟨S512x128, .f32⟩
  | .hbm, ⟨75, _⟩ => ⟨S512x128, .f32⟩
  | .hbm, ⟨76, _⟩ => ⟨S128x10, .f32⟩
  | .hbm, ⟨77, _⟩ => ⟨S512x10, .f32⟩
  | .hbm, ⟨78, _⟩ => ⟨S1x10, .f32⟩
  | .hbm, ⟨79, _⟩ => ⟨S512x10, .f32⟩
  | .hbm, ⟨80, _⟩ => ⟨S512x10, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x128, .f32⟩
  | .local _ .vmem, ⟨5, _⟩ => ⟨S1x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S1x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S10000x1, .i32⟩
  | .local _ .vmem, ⟨21, _⟩ => ⟨S10000x1, .i32⟩
  | .local _ .vmem, ⟨22, _⟩ => ⟨S128x128, .f32⟩
  | .local _ .vmem, ⟨23, _⟩ => ⟨S1x128, .f32⟩
  | .local _ .vmem, ⟨24, _⟩ => ⟨S512x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_1 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_4 : Ref sig .tc := ⟨.hbm, 47, rfl⟩
abbrev main_v30 : Ref sig .tc := ⟨.hbm, 48, rfl⟩
abbrev main_v31 : Ref sig .tc := ⟨.hbm, 49, rfl⟩
abbrev main_c_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_7 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem5_0 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S512x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S100000_S100000x1 : S100000.ShapeCasts S100000x1
  inb_S512x128_S512x128_0_0 : ∀ a, (![0, 0] : Fin 2 → Nat) a + S512x128.size a ≤ S512x128.size a
  h_S512x128 : 0 < S512x128.numel
  iota_S10000x512_d1_w32 : S10000x512.Iotas .tc 32 [1]
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x512 : S10000x1.Broadcasts S10000x512
  natLt_1_32 : 1 < 32
  shapeCasts_S512x128_S512x128 : S512x128.ShapeCasts S512x128
  bcast_S_S100000 : S_.BroadcastsInDim S100000 (![] : Fin 0 → Fin S100000.rank)
  bcast_S_S512 : S_.BroadcastsInDim S512 (![] : Fin 0 → Fin S512.rank)
  bcast_S100000_S100000x1_0 : S100000.BroadcastsInDim S100000x1 (![0] : Fin 1 → Fin S100000x1.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  transposes_S10x128_S128x10_1_0 : S10x128.Transposes [1, 0] S128x10
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  dot_S10000x512_S10000x128_S512x128_0_0_1_1_n_n_wf : DotDims.WF S10000x512 S10000x128 S512x128 [0] [0] [1] [1] [] []
  scatter_S512_S100000x1_S100000_n_0_0_1_wf : ScatterDims.WF S512 S100000x1 S100000 [] [0] [0] 1
  dot_S512x128_S128x10_S512x10_1_0_0_1_n_n_wf : DotDims.WF S512x128 S128x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x128.size a ≤ S100000x128.size a
  hwx0_4 : ∀ i : grid0.Coords, EltTy.bits .f32 = 32 ∨ (Rect.block (s := S100000x128) S10000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x128.size a ≤ S100000x128.size a
  hwx1_4 : ∀ i : grid1.Coords, EltTy.bits .f32 = 32 ∨ (Rect.block (s := S100000x128) S10000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S100000x128.size a
  hwx2_1 : ∀ i : grid2.Coords, EltTy.bits .f32 = 32 ∨ (Rect.block (s := S100000x128) S10000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .i32 = 32 ∨ (Rect.block (s := S100000x1) S10000x1.size (cc2_transform_2 i) (hinb2_2 i)).WholeWords (EltTy.packing .i32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S512x128.size a ≤ S512x128.size a
  hwx2_5 : ∀ i : grid2.Coords, EltTy.bits .f32 = 32 ∨ (Rect.block (s := S512x128) S512x128.size (cc2_transform_5 i) (hinb2_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x512_S10000x128_S512x128_0_0_1_1_n_n : DotDims S10000x512 S10000x128 S512x128 where
  lhsContracting := [0]
  rhsContracting := [0]
  lhsNonContracting := [1]
  rhsNonContracting := [1]
  lhsBatch := []
  rhsBatch := []
  wf := dot_S10000x512_S10000x128_S512x128_0_0_1_1_n_n_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S10000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v16) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S10000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v29) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42) S10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v40) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v41) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v43) S512x128.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S10x128 : Shape := ⟨2, ![10, 128]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S128x10 : Shape := ⟨2, ![128, 10]⟩
abbrev S512x10 : Shape := ⟨2, ![512, 10]⟩
abbrev S1x10 : Shape := ⟨2, ![1, 10]⟩

abbrev nBuf : Space → Nat
  | .hbm => 99
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S10x128, .f32⟩
  | .hbm, ⟨10, _⟩ => ⟨S10, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S100000x128, .f32⟩
  | .hbm, ⟨29, _⟩ => ⟨S128x128, .f32⟩
  | .hbm, ⟨30, _⟩ => ⟨S100000x128, .f32⟩
  | .hbm, ⟨31, _⟩ => ⟨S1x128, .f32⟩
  | .hbm, ⟨32, _⟩ => ⟨S100000x128, .f32⟩
  | .hbm, ⟨33, _⟩ => ⟨S100000x128, .f32⟩
  | .hbm, ⟨34, _⟩ => ⟨S_, .f32⟩
  | .hbm, ⟨35, _⟩ => ⟨S100000x128, .f32⟩
  | .hbm, ⟨36, _⟩ => ⟨S100000x128, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x128, .f32⟩
  | .hbm, ⟨46, _⟩ => ⟨S_, .f32⟩
  | .hbm, ⟨47, _⟩ => ⟨S100000x128, .f32⟩
  | .hbm, ⟨48, _⟩ => ⟨S1600000x1, .i32⟩
  | .hbm, ⟨49, _⟩ => ⟨S100000x128, .f32⟩
  | .hbm, ⟨50, _⟩ => ⟨S100000x128, .f32⟩
  | .hbm, ⟨51, _⟩ => ⟨S128x128, .f32⟩
  | .hbm, ⟨52, _⟩ => ⟨S100000x128, .f32⟩
  | .hbm, ⟨53, _⟩ => ⟨S1x128, .f32⟩
  | .hbm, ⟨54, _⟩ => ⟨S100000x128, .f32⟩
  | .hbm, ⟨55, _⟩ => ⟨S100000x128, .f32⟩
  | .hbm, ⟨56, _⟩ => ⟨S_, .f32⟩
  | .hbm, ⟨57, _⟩ => ⟨S100000x128, .f32⟩
  | .hbm, ⟨58, _⟩ => ⟨S100000x128, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x128, .f32⟩
  | .hbm, ⟨68, _⟩ => ⟨S_, .f32⟩
  | .hbm, ⟨69, _⟩ => ⟨S100000x128, .f32⟩
  | .hbm, ⟨70, _⟩ => ⟨S1600000x1, .i32⟩
  | .hbm, ⟨71, _⟩ => ⟨S100000x128, .f32⟩
  | .hbm, ⟨72, _⟩ => ⟨S100000x128, .f32⟩
  | .hbm, ⟨73, _⟩ => ⟨S128x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S_, .f32⟩
  | .hbm, ⟨79, _⟩ => ⟨S512x128, .f32⟩
  | .hbm, ⟨80, _⟩ => ⟨S100000x1, .i32⟩
  | .hbm, ⟨81, _⟩ => ⟨S512x128, .f32⟩
  | .hbm, ⟨82, _⟩ => ⟨S_, .f32⟩
  | .hbm, ⟨83, _⟩ => ⟨S100000, .f32⟩
  | .hbm, ⟨84, _⟩ => ⟨S_, .f32⟩
  | .hbm, ⟨85, _⟩ => ⟨S512, .f32⟩
  | .hbm, ⟨86, _⟩ => ⟨S100000x1, .i32⟩
  | .hbm, ⟨87, _⟩ => ⟨S512, .f32⟩
  | .hbm, ⟨88, _⟩ => ⟨S_, .f32⟩
  | .hbm, ⟨89, _⟩ => ⟨S512, .f32⟩
  | .hbm, ⟨90, _⟩ => ⟨S512, .f32⟩
  | .hbm, ⟨91, _⟩ => ⟨S512x1, .f32⟩
  | .hbm, ⟨92, _⟩ => ⟨S512x128, .f32⟩
  | .hbm, ⟨93, _⟩ => ⟨S512x128, .f32⟩
  | .hbm, ⟨94, _⟩ => ⟨S128x10, .f32⟩
  | .hbm, ⟨95, _⟩ => ⟨S512x10, .f32⟩
  | .hbm, ⟨96, _⟩ => ⟨S1x10, .f32⟩
  | .hbm, ⟨97, _⟩ => ⟨S512x10, .f32⟩
  | .hbm, ⟨98, _⟩ => ⟨S512x10, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_call0_cst : Ref sig .tc := ⟨.hbm, 34, rfl⟩
abbrev main_call0_v0 : Ref sig .tc := ⟨.hbm, 35, rfl⟩
abbrev main_v20 : Ref sig .tc := ⟨.hbm, 36, rfl⟩
abbrev main_c_1 : Ref sig .tc := ⟨.hbm, 37, rfl⟩
abbrev main_v21 : Ref sig .tc := ⟨.hbm, 38, rfl⟩
abbrev main_v22 : Ref sig .tc := ⟨.hbm, 39, rfl⟩
abbrev main_c_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_call1_cst : Ref sig .tc := ⟨.hbm, 56, rfl⟩
abbrev main_call1_v0 : Ref sig .tc := ⟨.hbm, 57, rfl⟩
abbrev main_v37 : Ref sig .tc := ⟨.hbm, 58, rfl⟩
abbrev main_c_4 : Ref sig .tc := ⟨.hbm, 59, rfl⟩
abbrev main_v38 : Ref sig .tc := ⟨.hbm, 60, rfl⟩
abbrev main_v39 : Ref sig .tc := ⟨.hbm, 61, rfl⟩
abbrev main_c_5 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_6 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_7 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_8 : Ref sig .tc := ⟨.hbm, 82, rfl⟩
abbrev main_v57 : Ref sig .tc := ⟨.hbm, 83, rfl⟩
abbrev main_cst_9 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_10 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512x128 : S_.BroadcastsInDim S512x128 (![] : Fin 0 → Fin S512x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  transposes_S10x128_S128x10_1_0 : S10x128.Transposes [1, 0] S128x10
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x10_S512x10_1_0_0_1_n_n_wf : DotDims.WF S512x128 S128x10 S512x10 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

class Facts : Prop extends Facts₀ where

variable [Facts]
-- ==== Proof.Spec.lean ====
/-
  The specification: what one layer computes, index by index, over the extended reals.
  A layer takes the node features `h` and the neighbourhood sums `a` (both 100000 × 128), a weight matrix
  given already transposed `wt` (128 × 128, entry (k, c) multiplies input feature k into output feature c)
  and a bias row `b` (1 × 128): entry (r, c) is  ∑ₖ (h r k + a r k) · wt k c + b 0 c.
-/
import Idealize.ShloMosaic.PureOps.Ideal
import Idealize.ShloMosaic.Lib.ValueIdx

noncomputable section

namespace Cert.Spec

open Idealize.ShloMosaic Idealize.ShloMosaic.ValueIdx

abbrev SN : Shape := ⟨2, ![100000, 128]⟩
abbrev SW : Shape := ⟨2, ![128, 128]⟩
abbrev SB : Shape := ⟨2, ![1, 128]⟩

/-- One layer's affine part at entry (r, c): the contraction of row r of `h + a` with column c of `wt`, plus the bias. -/
def lin (h a : SN.Idx → EReal) (wt : SW.Idx → EReal) (b : SB.Idx → EReal) : SN.Idx → EReal :=
  fun i => (∑ k : Fin 128, (h (ix2 (i 0) k) + a (ix2 (i 0) k)) * wt (ix2 k (i 1))) + b (ix2 0 (i 1))

end Cert.Spec

end
-- ==== Proof.Dense.lean ====
/-
  The two dense layers of the kernel (its first two pallas_calls), as whole arrays.
  Each call walks ten blocks of 10000 rows; at block t the body stores, for the rows 10000·t … 10000·t + 9999,
  max(∑ₖ (h r k + a r k) · wt k c + b 0 c, 0). The blocks tile the array, so after the call the output array holds
  that expression at every (r, c): the relu of `Cert.Spec.lin` of the four input arrays as the call found them.

  The proof has three steps. (1) One entry of the stored block: the block's matrix product into a zero accumulator is
  the sum over the contraction index of the operands' products, the bias row is read at its column, and the zero the
  maximum is taken against is the extended real 0. (2) At a symbolic grid point t, each loaded block is its array read
  at rows 10000·t + p (the weight matrix and the bias row are read whole), so what the point writes back is block t of
  one function of the four arrays. (3) Row r lies in block r / 10000 and every point writes back, so the blocks cover
  the array and it ends holding that function.
-/
import proofs.«429753_j10574209483251_2_alg».proof.Proof.Gen.KernelIdeal.Frame
import proofs.«429753_j10574209483251_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.DenseValue

open Cert.KernelIdeal Cert.KernelIdeal.Gen

/-! ## The block's matrix product at an entry -/

/-- The left operand of the block product at output entry `i` and contraction index `q`: its row is `i`'s row. -/
theorem lhs_dense_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- … and its column is the contraction index. -/
theorem lhs_dense_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- The right operand's row is the contraction index … -/
theorem rhs_dense_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- … and its column is `i`'s column. -/
theorem rhs_dense_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- A 10000 × 128 block times a 128 × 128 matrix, accumulated into zero, at entry (p, q): ∑ₖ a p k · w k q. -/
theorem block_matmul_apply (a : FVec Ideal S10000x128 .f32) (w : FVec Ideal S128x128 .f32) (p : Fin 10000) (q : Fin 128) :
    matmul dot_S10000x128_S128x128_S10000x128_1_0_0_1_n_n none a w (constant (F := Ideal) S10000x128 .f32 0x00000000#32) (ix2 p q)
      = ∑ k : Fin 128, a (ix2 p k) * w (ix2 k q) := by
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p q) ((ValueIdx.contrEquiv1 dot_S10000x128_S128x128_S10000x128_1_0_0_1_n_n 128 rfl rfl).symm k) = ix2 p k := funext fun a => Fin.ext (by
    match a with
    | ⟨0, _⟩ => exact lhs_dense_0 _ _
    | ⟨1, _⟩ => exact (lhs_dense_1 _ _).trans hk)
  have er : dot_S10000x128_S128x128_S10000x128_1_0_0_1_n_n.rhsIdx (ix2 p q) ((ValueIdx.contrEquiv1 dot_S10000x128_S128x128_S10000x128_1_0_0_1_n_n 128 rfl rfl).symm k) = ix2 k q := funext fun a => Fin.ext (by
    match a with
    | ⟨0, _⟩ => exact (rhs_dense_0 _ _).trans hk
    | ⟨1, _⟩ => exact rhs_dense_1 _ _)
  rw [el, er]

/-! ## What the body stores, at an entry of the block -/

/-- The bias row laid under every row of the block reads, at entry (p, q), the row's entry q. -/
theorem bias_apply (b : FVec Ideal S1x128 .f32) (p : Fin 10000) (q : Fin 128) :
    broadcastTo S10000x128 b broadcasts_S1x128_S10000x128 (ix2 p q) = b (ix2 0 q) := by
  refine broadcastTo_apply b broadcasts_S1x128_S10000x128 (ix2 p q) (ix2 0 q) (fun a => ?_)
  match a with
  | ⟨0, _⟩ => show (0 : Nat) = if (1 : Nat) = 1 then 0 else p.val; rw [if_pos rfl]
  | ⟨1, _⟩ => show q.val = if (128 : Nat) = 1 then 0 else q.val; rw [if_neg (by decide)]

/-- The first call's stored block at entry (p, q): the relu of row p of `x0 + x1` against column q of `x2`, plus the bias. -/
theorem pay0_apply (x0 x1 : FVec Ideal S10000x128 .f32) (x2 : FVec Ideal S128x128 .f32) (x3 : FVec Ideal S1x128 .f32)
    (p : Fin 10000) (q : Fin 128) :
    k0_pay1 (F := Ideal) x0 x1 x2 x3 (ix2 p q)
      = max ((∑ k : Fin 128, (x0 (ix2 p k) + x1 (ix2 p k)) * x2 (ix2 k q)) + x3 (ix2 0 q)) 0 := by
  unfold k0_pay1
  simp only [shapeCast_self]
  rw [maximumf_apply, addf_apply, block_matmul_apply, bias_apply, broadcast_apply]
  simp only [addf_apply]
  show max _ (Ideal.ofBits .f32 0x00000000#32) = _
  rw [Ideal.ofBits_zero_f32]

/-- The second call's body stores the same expression of its four loaded blocks. -/
theorem pay1_eq (x0 x1 : FVec Ideal S10000x128 .f32) (x2 : FVec Ideal S128x128 .f32) (x3 : FVec Ideal S1x128 .f32) :
    k1_pay1 (F := Ideal) x0 x1 x2 x3 = k0_pay1 (F := Ideal) x0 x1 x2 x3 := by
  unfold k1_pay1 k0_pay1
  simp only [shapeCast_self]

/-! ## From the ten blocks to the array -/

variable (V : (c : Dev nD) → (b : Ref sig .tc) → Buf (Elt Ideal) ((c : Thread nD τ).loc b))

theorem hz : (![0, 0] : Fin 2 → Nat) = fun _ => 0 := funext fun a => by fin_cases a <;> rfl

/-- Row `p` of the `t`-th block of 10000 rows is row 10000·t + p of the array. -/
abbrev brow (t : Nat) (ht : t < 10) (p : Fin 10000) : Fin 100000 := ⟨10000 * t + p.val, by have := p.isLt; omega⟩

/-- The relu of a layer's affine part, as one function of the four arrays. -/
abbrev reluLin (h a : Cert.Spec.SN.Idx → EReal) (wt : Cert.Spec.SW.Idx → EReal) (b : Cert.Spec.SB.Idx → EReal) :
    Cert.Spec.SN.Idx → EReal := fun i => max (Cert.Spec.lin h a wt b i) 0

/-! ### The first call -/

/-- The index maps over the grid: the two row-block operands and the result move together, block `t` at point `t`,
    and the weight matrix and the bias row stay at their only block. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Entry (p, k) of the first operand's block at point `t` is entry (10000·t + p, k) of its array. -/
theorem in0_0_apply (c : Dev nD) (t : Fin cfg0.N) (ht : t.val < 10) (p : Fin 10000) (k : Fin 128) :
    (iblk0 V c 0 t : Vec Ideal S10000x128 .f32) (ix2 p k)
      = (V c main_arg0 : S100000x128.Idx → EReal) (ix2 (brow t.val ht p) k) := by
  obtain ⟨e0, e1, -⟩ := idx_facts0 t
  unfold iblk0
  rw [View.read_apply]
  show (V c main_arg0 : S100000x128.Idx → EReal) _ = _
  refine congrArg (V c main_arg0 : S100000x128.Idx → EReal) (funext fun a => Fin.ext ?_)
  match a with
  | ⟨0, _⟩ => show win0_0.index t (0 : Fin 2) * 10000 + 1 * p.val = 10000 * t.val + p.val; rw [e0]; omega
  | ⟨1, _⟩ => show win0_0.index t (1 : Fin 2) * 128 + 1 * k.val = k.val; rw [e1]; omega

/-- The same for the second operand. -/
theorem in0_1_apply (c : Dev nD) (t : Fin cfg0.N) (ht : t.val < 10) (p : Fin 10000) (k : Fin 128) :
    (iblk0 V c 1 t : Vec Ideal S10000x128 .f32) (ix2 p k)
      = (V c main_v13 : S100000x128.Idx → EReal) (ix2 (brow t.val ht p) k) := by
  obtain ⟨-, -, e0, e1, -⟩ := idx_facts0 t
  unfold iblk0
  rw [View.read_apply]
  show (V c main_v13 : S100000x128.Idx → EReal) _ = _
  refine congrArg (V c main_v13 : S100000x128.Idx → EReal) (funext fun a => Fin.ext ?_)
  match a with
  | ⟨0, _⟩ => show win0_1.index t (0 : Fin 2) * 10000 + 1 * p.val = 10000 * t.val + p.val; rw [e0]; omega
  | ⟨1, _⟩ => show win0_1.index t (1 : Fin 2) * 128 + 1 * k.val = k.val; rw [e1]; omega

/-- The weight matrix's one block is the matrix. -/
theorem in0_2_apply (c : Dev nD) (t : Fin cfg0.N) (k q : Fin 128) :
    (iblk0 V c 2 t : Vec Ideal S128x128 .f32) (ix2 k q) = (V c main_v14 : S128x128.Idx → EReal) (ix2 k q) := by
  obtain ⟨-, -, -, -, e0, e1, -⟩ := idx_facts0 t
  unfold iblk0
  rw [View.read_apply]
  show (V c main_v14 : S128x128.Idx → EReal) _ = _
  refine congrArg (V c main_v14 : S128x128.Idx → EReal) (funext fun a => Fin.ext ?_)
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- The bias row's one block is the row. -/
theorem in0_3_apply (c : Dev nD) (t : Fin cfg0.N) (q : Fin 128) :
    (iblk0 V c 3 t : Vec Ideal S1x128 .f32) (ix2 0 q) = (V c main_v15 : S1x128.Idx → EReal) (ix2 0 q) := by
  obtain ⟨-, -, -, -, -, -, e0, e1, -⟩ := idx_facts0 t
  unfold iblk0
  rw [View.read_apply]
  show (V c main_v15 : S1x128.Idx → EReal) _ = _
  refine congrArg (V c main_v15 : S1x128.Idx → EReal) (funext fun a => Fin.ext ?_)
  match a with
  | ⟨0, _⟩ => show win0_3.index t (0 : Fin 2) * 1 + 1 * 0 = 0; rw [e0]
  | ⟨1, _⟩ => show win0_3.index t (1 : Fin 2) * 128 + 1 * q.val = q.val; rw [e1]; omega

/-- Entry (p, q) of the result's block at point `t` is entry (10000·t + p, q) of the result array. -/
theorem out0_emb (t : Fin cfg0.N) (ht : t.val < 10) (p : Fin 10000) (q : Fin 128) :
    ((cfg0.win 4).blk t).view.emb (ix2 p q) = (ix2 (brow t.val ht p) q : S100000x128.Idx) := by
  obtain ⟨-, -, -, -, -, -, -, -, e0, e1⟩ := idx_facts0 t
  funext a; apply Fin.ext
  match a with
  | ⟨0, _⟩ => show win0_4.index t (0 : Fin 2) * 10000 + 1 * p.val = 10000 * t.val + p.val; rw [e0]; omega
  | ⟨1, _⟩ => show win0_4.index t (1 : Fin 2) * 128 + 1 * q.val = q.val; rw [e1]; omega

/-- What point `t` writes back is block `t` of the layer's relu'd affine part of the four arrays as the call found them. -/
theorem flushed0_eq (c : Dev nD) (t : Fin cfg0.N) :
    (dat0 (F := Ideal) V c).flushed 4 t = ((cfg0.win 4).blk t).view.read (Elt Ideal)
      (reluLin (V c main_arg0) (V c main_v13) (V c main_v14) (V c main_v15)) := by
  have ht : t.val < 10 := lt_of_lt_of_eq t.isLt N_0
  show (cfg0.win 4).cut (grid0.coords t) ((dat0 V c).after 4 t) = _
  rw [after0_4]
  unfold out0_4
  rw [View.canon_unit_zero hz]
  simp only [View.ld_unit_zero (S := S10000x128) hz, View.ld_unit_zero (S := S128x128) hz, View.ld_unit_zero (S := S1x128) hz]
  funext j
  obtain ⟨p, q, rfl⟩ : ∃ (p : Fin 10000) (q : Fin 128), j = ix2 p q := ⟨j 0, j 1, eq_ix2 j⟩
  show k0_pay1 (F := Ideal) (iblk0 V c 0 t) (iblk0 V c 1 t) (iblk0 V c 2 t) (iblk0 V c 3 t) (ix2 p q)
    = reluLin (V c main_arg0) (V c main_v13) (V c main_v14) (V c main_v15) (((cfg0.win 4).blk t).view.emb (ix2 p q))
  rw [pay0_apply (iblk0 V c 0 t) (iblk0 V c 1 t) (iblk0 V c 2 t) (iblk0 V c 3 t) p q, out0_emb t ht p q]
  rw [in0_3_apply V c t q]
  simp only [in0_0_apply V c t ht p, in0_1_apply V c t ht p, in0_2_apply V c t]
  rfl

/-- An index of the result array is in point `t`'s block iff each coordinate is in the block's range on its axis. -/
theorem mem_blk0 (t : Fin cfg0.N) (i : S100000x128.Idx) :
    i ∈ ((cfg0.win 4).blk t).view.set ↔ ∀ a : Fin 2, win0_4.index t a * S10000x128.size a ≤ (i a).val
      ∧ (i a).val < win0_4.index t a * S10000x128.size a + S10000x128.size a := by
  show i ∈ ((View.whole main_v16).slice (win0_4.rect t)).set ↔ _
  rw [View.set_slice_whole, Rect.mem_set_unit]
  exact Iff.rfl

/-- The ten blocks tile the result array: row r lies in block r / 10000, and every point writes its block back. -/
theorem cover0 (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  obtain ⟨t, ht⟩ : ∃ t : Fin cfg0.N, t.val = (i 0).val / 10000 :=
    ⟨⟨(i 0).val / 10000, by rw [show cfg0.N = 10 from N_0]; omega⟩, rfl⟩
  obtain ⟨-, -, -, -, -, -, -, -, e0, e1⟩ := idx_facts0 t
  refine ⟨t, flush0_4 t, ?_⟩
  rw [mem_blk0]
  intro a
  match a with
  | ⟨0, _⟩ =>
    show win0_4.index t (0 : Fin 2) * 10000 ≤ (i 0).val ∧ (i 0).val < win0_4.index t (0 : Fin 2) * 10000 + 10000
    rw [e0]; omega
  | ⟨1, _⟩ =>
    show win0_4.index t (1 : Fin 2) * 128 ≤ (i 1).val ∧ (i 1).val < win0_4.index t (1 : Fin 2) * 128 + 128
    rw [e1]; omega

/-- After the first call its output array is the relu of the layer's affine part of the arrays it was entered with. -/
theorem final0 (c : Dev nD) :
    (dat0 (F := Ideal) V c).arrAt 4 cfg0.N
      = fun i => max (Cert.Spec.lin (V c main_arg0) (V c main_v13) (V c main_v14) (V c main_v15) i) 0 :=
  (dat0 (F := Ideal) V c).arrAt_eq_of_cover 4 (reluLin (V c main_arg0) (V c main_v13) (V c main_v14) (V c main_v15))
    (fun t _ => flushed0_eq V c t) cover0

/-! ### The second call -/

/-- The index maps over the grid: the two row-block operands and the result move together, block `t` at point `t`,
    and the weight matrix and the bias row stay at their only block. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Entry (p, k) of the first operand's block at point `t` is entry (10000·t + p, k) of its array. -/
theorem in1_0_apply (c : Dev nD) (t : Fin cfg1.N) (ht : t.val < 10) (p : Fin 10000) (k : Fin 128) :
    (iblk1 V c 0 t : Vec Ideal S10000x128 .f32) (ix2 p k)
      = (V c main_v16 : S100000x128.Idx → EReal) (ix2 (brow t.val ht p) k) := by
  obtain ⟨e0, e1, -⟩ := idx_facts1 t
  unfold iblk1
  rw [View.read_apply]
  show (V c main_v16 : S100000x128.Idx → EReal) _ = _
  refine congrArg (V c main_v16 : S100000x128.Idx → EReal) (funext fun a => Fin.ext ?_)
  match a with
  | ⟨0, _⟩ => show win1_0.index t (0 : Fin 2) * 10000 + 1 * p.val = 10000 * t.val + p.val; rw [e0]; omega
  | ⟨1, _⟩ => show win1_0.index t (1 : Fin 2) * 128 + 1 * k.val = k.val; rw [e1]; omega

/-- The same for the second operand. -/
theorem in1_1_apply (c : Dev nD) (t : Fin cfg1.N) (ht : t.val < 10) (p : Fin 10000) (k : Fin 128) :
    (iblk1 V c 1 t : Vec Ideal S10000x128 .f32) (ix2 p k)
      = (V c main_v26 : S100000x128.Idx → EReal) (ix2 (brow t.val ht p) k) := by
  obtain ⟨-, -, e0, e1, -⟩ := idx_facts1 t
  unfold iblk1
  rw [View.read_apply]
  show (V c main_v26 : S100000x128.Idx → EReal) _ = _
  refine congrArg (V c main_v26 : S100000x128.Idx → EReal) (funext fun a => Fin.ext ?_)
  match a with
  | ⟨0, _⟩ => show win1_1.index t (0 : Fin 2) * 10000 + 1 * p.val = 10000 * t.val + p.val; rw [e0]; omega
  | ⟨1, _⟩ => show win1_1.index t (1 : Fin 2) * 128 + 1 * k.val = k.val; rw [e1]; omega

/-- The weight matrix's one block is the matrix. -/
theorem in1_2_apply (c : Dev nD) (t : Fin cfg1.N) (k q : Fin 128) :
    (iblk1 V c 2 t : Vec Ideal S128x128 .f32) (ix2 k q) = (V c main_v27 : S128x128.Idx → EReal) (ix2 k q) := by
  obtain ⟨-, -, -, -, e0, e1, -⟩ := idx_facts1 t
  unfold iblk1
  rw [View.read_apply]
  show (V c main_v27 : S128x128.Idx → EReal) _ = _
  refine congrArg (V c main_v27 : S128x128.Idx → EReal) (funext fun a => Fin.ext ?_)
  match a with
  | ⟨0, _⟩ => show win1_2.index t (0 : Fin 2) * 128 + 1 * k.val = k.val; rw [e0]; omega
  | ⟨1, _⟩ => show win1_2.index t (1 : Fin 2) * 128 + 1 * q.val = q.val; rw [e1]; omega

/-- The bias row's one block is the row. -/
theorem in1_3_apply (c : Dev nD) (t : Fin cfg1.N) (q : Fin 128) :
    (iblk1 V c 3 t : Vec Ideal S1x128 .f32) (ix2 0 q) = (V c main_v28 : S1x128.Idx → EReal) (ix2 0 q) := by
  obtain ⟨-, -, -, -, -, -, e0, e1, -⟩ := idx_facts1 t
  unfold iblk1
  rw [View.read_apply]
  show (V c main_v28 : S1x128.Idx → EReal) _ = _
  refine congrArg (V c main_v28 : S1x128.Idx → EReal) (funext fun a => Fin.ext ?_)
  match a with
  | ⟨0, _⟩ => show win1_3.index t (0 : Fin 2) * 1 + 1 * 0 = 0; rw [e0]
  | ⟨1, _⟩ => show win1_3.index t (1 : Fin 2) * 128 + 1 * q.val = q.val; rw [e1]; omega

/-- Entry (p, q) of the result's block at point `t` is entry (10000·t + p, q) of the result array. -/
theorem out1_emb (t : Fin cfg1.N) (ht : t.val < 10) (p : Fin 10000) (q : Fin 128) :
    ((cfg1.win 4).blk t).view.emb (ix2 p q) = (ix2 (brow t.val ht p) q : S100000x128.Idx) := by
  obtain ⟨-, -, -, -, -, -, -, -, e0, e1⟩ := idx_facts1 t
  funext a; apply Fin.ext
  match a with
  | ⟨0, _⟩ => show win1_4.index t (0 : Fin 2) * 10000 + 1 * p.val = 10000 * t.val + p.val; rw [e0]; omega
  | ⟨1, _⟩ => show win1_4.index t (1 : Fin 2) * 128 + 1 * q.val = q.val; rw [e1]; omega

/-- What point `t` writes back is block `t` of the layer's relu'd affine part of the four arrays as the call found them. -/
theorem flushed1_eq (c : Dev nD) (t : Fin cfg1.N) :
    (dat1 (F := Ideal) V c).flushed 4 t = ((cfg1.win 4).blk t).view.read (Elt Ideal)
      (reluLin (V c main_v16) (V c main_v26) (V c main_v27) (V c main_v28)) := by
  have ht : t.val < 10 := lt_of_lt_of_eq t.isLt N_1
  show (cfg1.win 4).cut (grid1.coords t) ((dat1 V c).after 4 t) = _
  rw [after1_4]
  unfold out1_4
  rw [View.canon_unit_zero hz]
  simp only [View.ld_unit_zero (S := S10000x128) hz, View.ld_unit_zero (S := S128x128) hz, View.ld_unit_zero (S := S1x128) hz]
  funext j
  obtain ⟨p, q, rfl⟩ : ∃ (p : Fin 10000) (q : Fin 128), j = ix2 p q := ⟨j 0, j 1, eq_ix2 j⟩
  show k1_pay1 (F := Ideal) (iblk1 V c 0 t) (iblk1 V c 1 t) (iblk1 V c 2 t) (iblk1 V c 3 t) (ix2 p q)
    = reluLin (V c main_v16) (V c main_v26) (V c main_v27) (V c main_v28) (((cfg1.win 4).blk t).view.emb (ix2 p q))
  rw [pay1_eq, pay0_apply (iblk1 V c 0 t) (iblk1 V c 1 t) (iblk1 V c 2 t) (iblk1 V c 3 t) p q, out1_emb t ht p q]
  rw [in1_3_apply V c t q]
  simp only [in1_0_apply V c t ht p, in1_1_apply V c t ht p, in1_2_apply V c t]
  rfl

/-- An index of the result array is in point `t`'s block iff each coordinate is in the block's range on its axis. -/
theorem mem_blk1 (t : Fin cfg1.N) (i : S100000x128.Idx) :
    i ∈ ((cfg1.win 4).blk t).view.set ↔ ∀ a : Fin 2, win1_4.index t a * S10000x128.size a ≤ (i a).val
      ∧ (i a).val < win1_4.index t a * S10000x128.size a + S10000x128.size a := by
  show i ∈ ((View.whole main_v29).slice (win1_4.rect t)).set ↔ _
  rw [View.set_slice_whole, Rect.mem_set_unit]
  exact Iff.rfl

/-- The ten blocks tile the result array: row r lies in block r / 10000, and every point writes its block back. -/
theorem cover1 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  obtain ⟨t, ht⟩ : ∃ t : Fin cfg1.N, t.val = (i 0).val / 10000 :=
    ⟨⟨(i 0).val / 10000, by rw [show cfg1.N = 10 from N_1]; omega⟩, rfl⟩
  obtain ⟨-, -, -, -, -, -, -, -, e0, e1⟩ := idx_facts1 t
  refine ⟨t, flush1_4 t, ?_⟩
  rw [mem_blk1]
  intro a
  match a with
  | ⟨0, _⟩ =>
    show win1_4.index t (0 : Fin 2) * 10000 ≤ (i 0).val ∧ (i 0).val < win1_4.index t (0 : Fin 2) * 10000 + 10000
    rw [e0]; omega
  | ⟨1, _⟩ =>
    show win1_4.index t (1 : Fin 2) * 128 ≤ (i 1).val ∧ (i 1).val < win1_4.index t (1 : Fin 2) * 128 + 128
    rw [e1]; omega

/-- The same for the second call. -/
theorem final1 (c : Dev nD) :
    (dat1 (F := Ideal) V c).arrAt 4 cfg1.N
      = fun i => max (Cert.Spec.lin (V c main_v16) (V c main_v26) (V c main_v27) (V c main_v28) i) 0 :=
  (dat1 (F := Ideal) V c).arrAt_eq_of_cover 4 (reluLin (V c main_v16) (V c main_v26) (V c main_v27) (V c main_v28))
    (fun t _ => flushed1_eq V c t) cover1

end Cert.KernelIdeal.DenseValue

end
-- ==== Proof.Pool.lean ====
/-
  The third pallas_call: the last layer's affine part, pooled by graph id, as a whole array.
  At block t the body forms h r c = ∑ₖ (x r k + a r k) · wt k c + b 0 c for the block's 10000 rows, the 0/1 matrix
  [id r = g], and adds ∑ᵣ [id r = g] · h r c into the 512 × 128 accumulator, which the first block resets to zero.
  Over the extended reals 0 · y = 0 and 1 · y = y for every y, and addition is commutative and associative, so after
  the tenth block entry (g, c) of the accumulator is the sum of h r c over the rows r of all 100000 whose id is g.
-/
import proofs.«429753_j10574209483251_2_alg».proof.Proof.Gen.KernelIdeal.Frame
import proofs.«429753_j10574209483251_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.PoolValue

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

section Pieces
variable {F : FTy → Type} [FloatOps F]

/-- A later block (the reset not taken): the body leaves the payload over the six blocks it loaded, the accumulator last. -/
theorem out_B (c : Dev nD) (i : grid2.Coords)
    (a1 : Memref sig .tc .vmem S10000x128 .f32) (h1 : a1.IsWhole) (a2 : Memref sig .tc .vmem S10000x128 .f32) (h2 : a2.IsWhole)
    (a3 : Memref sig .tc .vmem S10000x1 .i32) (h3 : a3.IsWhole) (a4 : Memref sig .tc .vmem S128x128 .f32) (h4 : a4.IsWhole)
    (a5 : Memref sig .tc .vmem S1x128 .f32) (h5 : a5.IsWhole) (a6 : Memref sig .tc .vmem S512x128 .f32) (h6 : a6.IsWhole)
    (hc : ¬cond2_0 i) (x0 x1 : Vec F S10000x128 .f32) (x2 : Vec F S10000x1 .i32) (x3 : Vec F S128x128 .f32)
    (x4 : Vec F S1x128 .f32) (xo : Vec F S512x128 .f32) :
    out2_B_5 c i a1 h1 a2 h2 a3 h3 a4 h4 a5 h5 a6 h6 hc x0 x1 x2 x3 x4 xo = k2_pay2 x0 x1 x3 x4 x2 xo := by
  unfold out2_B_5
  rw [View.read_writes_eq_canon _ _ _ (cover2_B_5 c i a1 h1 a2 h2 a3 h3 a4 h4 a5 h5 a6 h6 hc x0 x1 x2 x3 x4 xo)]
  unfold kernelRun2_B
  dsimp only
  sl_unfold_words
  rw [View.canon_unit_zero hz]
  simp only [View.readAt_eq_ld, h1.read_unread, h2.read_unread, h3.read_unread, h4.read_unread, h5.read_unread,
    h6.read_unread, View.ld_unit_zero (S := S10000x128) hz, View.ld_unit_zero (S := S10000x1) hz,
    View.ld_unit_zero (S := S128x128) hz, View.ld_unit_zero (S := S1x128) hz, View.ld_unit_zero (S := S512x128) hz]

/-- The first block (the reset taken): the zero block is stored, read back, and the payload is formed over it. -/
theorem out_A (c : Dev nD) (i : grid2.Coords)
    (a1 : Memref sig .tc .vmem S10000x128 .f32) (h1 : a1.IsWhole) (a2 : Memref sig .tc .vmem S10000x128 .f32) (h2 : a2.IsWhole)
    (a3 : Memref sig .tc .vmem S10000x1 .i32) (h3 : a3.IsWhole) (a4 : Memref sig .tc .vmem S128x128 .f32) (h4 : a4.IsWhole)
    (a5 : Memref sig .tc .vmem S1x128 .f32) (h5 : a5.IsWhole) (a6 : Memref sig .tc .vmem S512x128 .f32) (h6 : a6.IsWhole)
    (hc : cond2_0 i) (x0 x1 : Vec F S10000x128 .f32) (x2 : Vec F S10000x1 .i32) (x3 : Vec F S128x128 .f32)
    (x4 : Vec F S1x128 .f32) :
    out2_A_5 c i a1 h1 a2 h2 a3 h3 a4 h4 a5 h5 a6 h6 hc x0 x1 x2 x3 x4 = k2_pay2 x0 x1 x3 x4 x2 (k2_pay1 (F := F)) := by
  unfold out2_A_5
  rw [View.read_writes_eq_canon _ _ _ (cover2_A_5 c i a1 h1 a2 h2 a3 h3 a4 h4 a5 h5 a6 h6 hc x0 x1 x2 x3 x4)]
  unfold kernelRun2_A
  dsimp only
  sl_unfold_words
  rw [View.canon_cons_unit_zero (S := S512x128) hz, View.readCov_unit_zero (S := S512x128) _ hz]
  simp only [View.readAt_eq_ld, h1.read_unread, h2.read_unread, h3.read_unread, h4.read_unread, h5.read_unread,
    View.ld_unit_zero (S := S10000x128) hz, View.ld_unit_zero (S := S10000x1) hz,
    View.ld_unit_zero (S := S128x128) hz, View.ld_unit_zero (S := S1x128) hz]

end Pieces

section Payload

/-! ### The two products' operand indices -/

theorem d1_lhs0 (j : S10000x128.Idx) (q : dot_S10000x128_S128x128_S10000x128_1_0_0_1_n_n.contr.Idx) : (dot_S10000x128_S128x128_S10000x128_1_0_0_1_n_n.lhsIdx j q 0).val = (j 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem d1_lhs1 (j : S10000x128.Idx) (q : dot_S10000x128_S128x128_S10000x128_1_0_0_1_n_n.contr.Idx) : (dot_S10000x128_S128x128_S10000x128_1_0_0_1_n_n.lhsIdx j q 1).val = (q ⟨0, by decide⟩).val :=
  dot_S10000x128_S128x128_S10000x128_1_0_0_1_n_n.lhsIdx_val_of_single rfl j q
theorem d1_rhs0 (j : S10000x128.Idx) (q : dot_S10000x128_S128x128_S10000x128_1_0_0_1_n_n.contr.Idx) : (dot_S10000x128_S128x128_S10000x128_1_0_0_1_n_n.rhsIdx j q 0).val = (q ⟨0, by decide⟩).val :=
  dot_S10000x128_S128x128_S10000x128_1_0_0_1_n_n.rhsIdx_val_of_single rfl j q
theorem d1_rhs1 (j : S10000x128.Idx) (q : dot_S10000x128_S128x128_S10000x128_1_0_0_1_n_n.contr.Idx) : (dot_S10000x128_S128x128_S10000x128_1_0_0_1_n_n.rhsIdx j q 1).val = (j 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

theorem d2_lhs0 (j : S512x128.Idx) (q : dot_S10000x512_S10000x128_S512x128_0_0_1_1_n_n.contr.Idx) : (dot_S10000x512_S10000x128_S512x128_0_0_1_1_n_n.lhsIdx j q 0).val = (q ⟨0, by decide⟩).val :=
  dot_S10000x512_S10000x128_S512x128_0_0_1_1_n_n.lhsIdx_val_of_single rfl j q
theorem d2_lhs1 (j : S512x128.Idx) (q : dot_S10000x512_S10000x128_S512x128_0_0_1_1_n_n.contr.Idx) : (dot_S10000x512_S10000x128_S512x128_0_0_1_1_n_n.lhsIdx j q 1).val = (j 0).val := by
  unfold DotDims.lhsIdx
  rw [dif_neg (show ¬(1 : Fin S10000x512.rank) ∈ dot_S10000x512_S10000x128_S512x128_0_0_1_1_n_n.lhsBatch by decide), dif_pos (show (1 : Fin S10000x512.rank) ∈ dot_S10000x512_S10000x128_S512x128_0_0_1_1_n_n.lhsNonContracting by decide)]
  rfl
theorem d2_rhs0 (j : S512x128.Idx) (q : dot_S10000x512_S10000x128_S512x128_0_0_1_1_n_n.contr.Idx) : (dot_S10000x512_S10000x128_S512x128_0_0_1_1_n_n.rhsIdx j q 0).val = (q ⟨0, by decide⟩).val :=
  dot_S10000x512_S10000x128_S512x128_0_0_1_1_n_n.rhsIdx_val_of_single rfl j q
theorem d2_rhs1 (j : S512x128.Idx) (q : dot_S10000x512_S10000x128_S512x128_0_0_1_1_n_n.contr.Idx) : (dot_S10000x512_S10000x128_S512x128_0_0_1_1_n_n.rhsIdx j q 1).val = (j 1).val := by
  unfold DotDims.rhsIdx
  rw [dif_neg (show ¬(1 : Fin S10000x128.rank) ∈ dot_S10000x512_S10000x128_S512x128_0_0_1_1_n_n.rhsBatch by decide), dif_pos (show (1 : Fin S10000x128.rank) ∈ dot_S10000x512_S10000x128_S512x128_0_0_1_1_n_n.rhsNonContracting by decide)]
  rfl

/-- The first product into the zero block, at (r, d): row r of the left factor against column d of the right. -/
theorem mm1_apply (l : FVec Ideal S10000x128 .f32) (w : FVec Ideal S128x128 .f32) (r : Fin 10000) (d : Fin 128) :
    matmul dot_S10000x128_S128x128_S10000x128_1_0_0_1_n_n none l w (constant S10000x128 .f32 0x00000000#32) (ix2 r d) = ∑ k : Fin 128, l (ix2 r k) * w (ix2 k d) := by
  refine (Ideal.matmul_constant_zero_apply dot_S10000x128_S128x128_S10000x128_1_0_0_1_n_n none l w (ix2 r d)).trans ?_
  rw [← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 r d) ((ValueIdx.contrEquiv1 dot_S10000x128_S128x128_S10000x128_1_0_0_1_n_n 128 rfl rfl).symm k) = ix2 r k := funext fun a => Fin.ext (by
    match a with
    | ⟨0, _⟩ => exact d1_lhs0 _ _
    | ⟨1, _⟩ => exact (d1_lhs1 _ _).trans hk)
  have er : dot_S10000x128_S128x128_S10000x128_1_0_0_1_n_n.rhsIdx (ix2 r d) ((ValueIdx.contrEquiv1 dot_S10000x128_S128x128_S10000x128_1_0_0_1_n_n 128 rfl rfl).symm k) = ix2 k d := funext fun a => Fin.ext (by
    match a with
    | ⟨0, _⟩ => exact (d1_rhs0 _ _).trans hk
    | ⟨1, _⟩ => exact d1_rhs1 _ _)
  rw [el, er]

/-- The second product into the zero block, at (g, d): it contracts the ROWS of both factors. -/
theorem mm2_apply (l : FVec Ideal S10000x512 .f32) (h : FVec Ideal S10000x128 .f32) (g : Fin 512) (d : Fin 128) :
    matmul dot_S10000x512_S10000x128_S512x128_0_0_1_1_n_n none l h (constant S512x128 .f32 0x00000000#32) (ix2 g d) = ∑ r : Fin 10000, l (ix2 r g) * h (ix2 r d) := by
  refine (Ideal.matmul_constant_zero_apply dot_S10000x512_S10000x128_S512x128_0_0_1_1_n_n none l h (ix2 g d)).trans ?_
  rw [← Equiv.sum_comp (ValueIdx.contrEquiv1 dot_S10000x512_S10000x128_S512x128_0_0_1_1_n_n 10000 rfl rfl).symm]
  refine Finset.sum_congr rfl fun r _ => ?_
  have hr := ValueIdx.contrEquiv1_symm_val dot_S10000x512_S10000x128_S512x128_0_0_1_1_n_n 10000 rfl rfl r
  have el : dot_S10000x512_S10000x128_S512x128_0_0_1_1_n_n.lhsIdx (ix2 g d) ((ValueIdx.contrEquiv1 dot_S10000x512_S10000x128_S512x128_0_0_1_1_n_n 10000 rfl rfl).symm r) = ix2 r g := funext fun a => Fin.ext (by
    match a with
    | ⟨0, _⟩ => exact (d2_lhs0 _ _).trans hr
    | ⟨1, _⟩ => exact d2_lhs1 _ _)
  have er : dot_S10000x512_S10000x128_S512x128_0_0_1_1_n_n.rhsIdx (ix2 g d) ((ValueIdx.contrEquiv1 dot_S10000x512_S10000x128_S512x128_0_0_1_1_n_n 10000 rfl rfl).symm r) = ix2 r d := funext fun a => Fin.ext (by
    match a with
    | ⟨0, _⟩ => exact (d2_rhs0 _ _).trans hr
    | ⟨1, _⟩ => exact d2_rhs1 _ _)
  rw [el, er]

end Payload

section PayloadValue

/-- A comparison bit widened to a word and converted: the real 1 where the two words agree, 0 where they differ. -/
theorem sel01 (x y : BitVec 32) :
    FloatOps.sitofp (F := Ideal) .f32 ((IntOp.cmpi .eq x y).setWidth 32) = if x = y then (1 : EReal) else 0 := by
  show (((((IntOp.cmpi .eq x y).setWidth 32).toInt : ℤ) : ℝ) : EReal) = _
  by_cases h : x = y
  · subst h
    rw [if_pos rfl]
    simp [IntOp.cmpi]
  · rw [if_neg h]
    have hb : (x == y) = false := beq_eq_false_iff_ne.mpr h
    simp [IntOp.cmpi, hb]

/-- The 0/1 matrix at (r, g): whether row r's id is the word g. -/
theorem onehot_apply (ids : S10000x1.Idx → BitVec 32) (hb : S10000x1.Broadcasts S10000x512)
    (hi : S10000x512.Iotas .tc 32 [1]) (hlt : 1 < 32) (r : Fin 10000) (g : Fin 512) :
    (sitofp .f32 (extui 32 (cmpi .eq (broadcastTo S10000x512 ids hb) (iota .tc S10000x512 32 [1] hi)) hlt) : FVec Ideal S10000x512 .f32) (ix2 r g)
      = if ids (ix2 r 0) = BitVec.ofNat 32 g.val then (1 : EReal) else 0 := by
  have e1 : broadcastTo S10000x512 ids hb (ix2 r g) = ids (ix2 r 0) :=
    broadcastTo_apply ids hb (ix2 r g) (ix2 r 0) (fun a => match a with
      | ⟨0, _⟩ => by show r.val = if (10000 : Nat) = 1 then 0 else r.val; rw [if_neg (by decide)]
      | ⟨1, _⟩ => by show (0 : Nat) = if (1 : Nat) = 1 then 0 else _; rw [if_pos rfl])
  have e2 : iota .tc S10000x512 32 [1] hi (ix2 r g) = BitVec.ofNat 32 g.val :=
    iota_single_apply .tc S10000x512 32 1 hi (ix2 r g)
  show FloatOps.sitofp (F := Ideal) .f32 ((IntOp.cmpi .eq (broadcastTo S10000x512 ids hb (ix2 r g)) (iota .tc S10000x512 32 [1] hi (ix2 r g))).setWidth 32) = _
  rw [e1, e2]
  exact sel01 _ _

/-- The affine part of the layer on one block of 10000 rows, at (r, d). -/
def hblk (x0 x1 : S10000x128.Idx → EReal) (w : S128x128.Idx → EReal) (b : S1x128.Idx → EReal) (r : Fin 10000) (d : Fin 128) : EReal :=
  (∑ k : Fin 128, (x0 (ix2 r k) + x1 (ix2 r k)) * w (ix2 k d)) + b (ix2 0 d)

theorem aff_apply (x0 x1 : FVec Ideal S10000x128 .f32) (w : FVec Ideal S128x128 .f32) (b : FVec Ideal S1x128 .f32)
    (hb : S1x128.Broadcasts S10000x128) (r : Fin 10000) (d : Fin 128) :
    addf (matmul dot_S10000x128_S128x128_S10000x128_1_0_0_1_n_n none (addf x0 x1) w (constant S10000x128 .f32 0x00000000#32)) (broadcastTo S10000x128 b hb) (ix2 r d)
      = hblk x0 x1 w b r d := by
  show matmul dot_S10000x128_S128x128_S10000x128_1_0_0_1_n_n none (addf x0 x1) w (constant S10000x128 .f32 0x00000000#32) (ix2 r d) + broadcastTo S10000x128 b hb (ix2 r d) = _
  rw [mm1_apply, ValueIdx.broadcastTo_1b_ab_apply]
  rfl

/-- The payload at (g, d): the accumulator there plus the sum, over the block's rows whose id is g, of the affine part. -/
theorem pay2_apply (x0 x1 : Vec Ideal S10000x128 .f32) (w : Vec Ideal S128x128 .f32) (b : Vec Ideal S1x128 .f32)
    (ids : Vec Ideal S10000x1 .i32) (xo : Vec Ideal S512x128 .f32) (g : Fin 512) (d : Fin 128) :
    k2_pay2 (F := Ideal) x0 x1 w b ids xo (ix2 g d)
      = xo (ix2 g d) + ∑ r : Fin 10000, if ids (ix2 r 0) = BitVec.ofNat 32 g.val then hblk x0 x1 w b r d else 0 := by
  unfold k2_pay2
  simp only [shapeCast_self]
  refine (ValueIdx.addf_apply (φ := .f32) xo _ (ix2 g d)).trans ?_
  refine congrArg (xo (ix2 g d) + ·) ?_
  refine (mm2_apply _ _ g d).trans ?_
  refine Finset.sum_congr rfl fun r _ => ?_
  refine (congrArg₂ (· * ·) (onehot_apply ids _ _ _ r g) (aff_apply x0 x1 w b _ r d)).trans ?_
  show (if ids (ix2 r 0) = BitVec.ofNat 32 g.val then (1 : EReal) else 0) * hblk x0 x1 w b r d = _
  by_cases h : ids (ix2 r 0) = BitVec.ofNat 32 g.val
  · rw [if_pos h, if_pos h]; exact one_mul _
  · rw [if_neg h, if_neg h]; exact zero_mul _

/-- The reset block is zero everywhere. -/
theorem pay1_apply (g : Fin 512) (d : Fin 128) : k2_pay1 (F := Ideal) (ix2 g d) = 0 :=
  Ideal.ofBits_zero_f32

end PayloadValue

section Blocks

/-- The five input windows' blocks at a point, each at its literal type. -/
abbrev xblk (c : Dev nD) (t : Fin cfg2.N) : Vec Ideal S10000x128 .f32 := iblk2 V c 0 t
abbrev ablk (c : Dev nD) (t : Fin cfg2.N) : Vec Ideal S10000x128 .f32 := iblk2 V c 1 t
abbrev gblk (c : Dev nD) (t : Fin cfg2.N) : Vec Ideal S10000x1 .i32 := iblk2 V c 2 t
abbrev wblk (c : Dev nD) (t : Fin cfg2.N) : Vec Ideal S128x128 .f32 := iblk2 V c 3 t
abbrev bblk (c : Dev nD) (t : Fin cfg2.N) : Vec Ideal S1x128 .f32 := iblk2 V c 4 t

/-- Row r of block s is row 10000 s + r of the whole array. -/
def row (s : ℕ) (hs : s < 10) (r : Fin 10000) : Fin 100000 := ⟨10000 * s + r.val, by have := r.isLt; omega⟩

theorem lt10 (t : Fin cfg2.N) : t.val < 10 := lt_of_lt_of_eq t.isLt (show cfg2.N = 10 from N_2)

/-- The two feature windows and the id window walk the rows block by block; the weight and bias windows stay put. -/
theorem xblk_apply (c : Dev nD) (t : Fin cfg2.N) (r : Fin 10000) (k : Fin 128) :
    xblk V c t (ix2 r k) = V c main_v29 (ix2 (row t.val (lt10 t) r) k) := by
  have hi : win2_0.index t 0 = t.val ∧ win2_0.index t 1 = 0 := by
    rcases fin_N2 t with rfl | rfl | rfl | rfl | rfl | rfl | rfl | rfl | rfl | rfl <;> decide
  show iblk2 V c 0 t (ix2 r k) = _
  unfold iblk2
  rw [View.read_apply]
  show V c main_v29 _ = V c main_v29 _
  congr 1
  funext a
  apply Fin.ext
  match a with
  | ⟨0, _⟩ => show win2_0.index t 0 * 10000 + 1 * r.val = 10000 * t.val + r.val; rw [hi.1]; omega
  | ⟨1, _⟩ => show win2_0.index t 1 * 128 + 1 * k.val = k.val; rw [hi.2]; omega

theorem ablk_apply (c : Dev nD) (t : Fin cfg2.N) (r : Fin 10000) (k : Fin 128) :
    ablk V c t (ix2 r k) = V c main_v39 (ix2 (row t.val (lt10 t) r) k) := by
  have hi : win2_1.index t 0 = t.val ∧ win2_1.index t 1 = 0 := by
    rcases fin_N2 t with rfl | rfl | rfl | rfl | rfl | rfl | rfl | rfl | rfl | rfl <;> decide
  show iblk2 V c 1 t (ix2 r k) = _
  unfold iblk2
  rw [View.read_apply]
  show V c main_v39 _ = V c main_v39 _
  congr 1
  funext a
  apply Fin.ext
  match a with
  | ⟨0, _⟩ => show win2_1.index t 0 * 10000 + 1 * r.val = 10000 * t.val + r.val; rw [hi.1]; omega
  | ⟨1, _⟩ => show win2_1.index t 1 * 128 + 1 * k.val = k.val; rw [hi.2]; omega

theorem gblk_apply (c : Dev nD) (t : Fin cfg2.N) (r : Fin 10000) :
    gblk V c t (ix2 r 0) = V c main_v42 (ix2 (row t.val (lt10 t) r) 0) := by
  have hi : win2_2.index t 0 = t.val ∧ win2_2.index t 1 = 0 := by
    rcases fin_N2 t with rfl | rfl | rfl | rfl | rfl | rfl | rfl | rfl | rfl | rfl <;> decide
  show iblk2 V c 2 t (ix2 r 0) = _
  unfold iblk2
  rw [View.read_apply]
  show V c main_v42 _ = V c main_v42 _
  congr 1
  funext a
  apply Fin.ext
  match a with
  | ⟨0, _⟩ => show win2_2.index t 0 * 10000 + 1 * r.val = 10000 * t.val + r.val; rw [hi.1]; omega
  | ⟨1, _⟩ => show win2_2.index t 1 * 1 + 1 * 0 = 0; rw [hi.2]

theorem wblk_apply (c : Dev nD) (t : Fin cfg2.N) (k d : Fin 128) :
    wblk V c t (ix2 k d) = V c main_v40 (ix2 k d) := by
  have hi : win2_3.index t 0 = 0 ∧ win2_3.index t 1 = 0 := by
    rcases fin_N2 t with rfl | rfl | rfl | rfl | rfl | rfl | rfl | rfl | rfl | rfl <;> decide
  show iblk2 V c 3 t (ix2 k d) = _
  unfold iblk2
  rw [View.read_apply]
  show V c main_v40 _ = V c main_v40 _
  congr 1
  funext a
  apply Fin.ext
  match a with
  | ⟨0, _⟩ => show win2_3.index t 0 * 128 + 1 * k.val = k.val; rw [hi.1]; omega
  | ⟨1, _⟩ => show win2_3.index t 1 * 128 + 1 * d.val = d.val; rw [hi.2]; omega

theorem bblk_apply (c : Dev nD) (t : Fin cfg2.N) (d : Fin 128) :
    bblk V c t (ix2 0 d) = V c main_v41 (ix2 0 d) := by
  have hi : win2_4.index t 0 = 0 ∧ win2_4.index t 1 = 0 := by
    rcases fin_N2 t with rfl | rfl | rfl | rfl | rfl | rfl | rfl | rfl | rfl | rfl <;> decide
  show iblk2 V c 4 t (ix2 0 d) = _
  unfold iblk2
  rw [View.read_apply]
  show V c main_v41 _ = V c main_v41 _
  congr 1
  funext a
  apply Fin.ext
  match a with
  | ⟨0, _⟩ => show win2_4.index t 0 * 1 + 1 * 0 = 0; rw [hi.1]
  | ⟨1, _⟩ => show win2_4.index t 1 * 128 + 1 * d.val = d.val; rw [hi.2]; omega

/-- Row R's share of entry (g, d): the layer's affine part at (R, d) when R's id is the word g, else nothing. -/
def term (c : Dev nD) (g : Fin 512) (d : Fin 128) (R : Fin 100000) : EReal :=
  if V c main_v42 (ix2 R 0) = BitVec.ofNat 32 g.val
  then Cert.Spec.lin (V c main_v29) (V c main_v39) (V c main_v40) (V c main_v41) (ix2 R d) else 0

/-- On block t the payload's summand at row r is the share of row 10000 t + r. -/
theorem blk_term (c : Dev nD) (t : Fin cfg2.N) (g : Fin 512) (d : Fin 128) (r : Fin 10000) :
    (if gblk V c t (ix2 r 0) = BitVec.ofNat 32 g.val then hblk (xblk V c t) (ablk V c t) (wblk V c t) (bblk V c t) r d else 0)
      = term V c g d (row t.val (lt10 t) r) := by
  unfold term hblk Cert.Spec.lin
  rw [gblk_apply, bblk_apply]
  simp only [xblk_apply, ablk_apply, wblk_apply]

end Blocks

section Fold

/-- Block s's contribution to entry (g, d): the shares of its 10000 rows. -/
def bsum (c : Dev nD) (g : Fin 512) (d : Fin 128) (s : ℕ) : EReal :=
  if hs : s < 10 then ∑ r : Fin 10000, term V c g d (row s hs r) else 0

/-- What the payload adds at point t is block t's contribution. -/
theorem step_sum (c : Dev nD) (t : Fin cfg2.N) (g : Fin 512) (d : Fin 128) :
    (∑ r : Fin 10000, if gblk V c t (ix2 r 0) = BitVec.ofNat 32 g.val
        then hblk (xblk V c t) (ablk V c t) (wblk V c t) (bblk V c t) r d else 0) = bsum V c g d t.val := by
  unfold bsum
  rw [dif_pos (lt10 t)]
  exact Finset.sum_congr rfl fun r _ => blk_term V c t g d r

/-- After point n the accumulator's entry (g, d) is the sum of the contributions of blocks 0, …, n — by induction on
    the point: the first point adds its block to the zero it has just stored, a later point to what the point before left. -/
theorem outsAt_apply (c : Dev nD) : ∀ (n : ℕ) (h : n < cfg2.N) (g : Fin 512) (d : Fin 128),
    outsAt2 V c n h (ix2 g d) = ∑ s ∈ Finset.range (n + 1), bsum V c g d s
  | 0, h, g, d => by
    have hA : (⟨0, h⟩ : Fin cfg2.N).val % 10 = 0 := rfl
    rw [outsAt2_A V c ⟨0, h⟩ hA]
    refine (congrFun (out_A (F := Ideal) c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) (ms2_5 ⟨0, h⟩) (hs2_5 ⟨0, h⟩) ((hcond2_0 ⟨0, h⟩).mpr hA) (xblk V c ⟨0, h⟩) (ablk V c ⟨0, h⟩) (gblk V c ⟨0, h⟩) (wblk V c ⟨0, h⟩) (bblk V c ⟨0, h⟩)) (ix2 g d)).trans ?_
    rw [pay2_apply, pay1_apply, zero_add, Finset.sum_range_one]
    exact step_sum V c ⟨0, h⟩ g d
  | n + 1, h, g, d => by
    have hN : cfg2.N = 10 := N_2
    have hB : ¬(⟨n + 1, h⟩ : Fin cfg2.N).val % 10 = 0 := by dsimp only; omega
    rw [outsAt2_B V c ⟨n + 1, h⟩ hB]
    refine (congrFun (out_B (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (fun hh => hB ((hcond2_0 ⟨n + 1, h⟩).mp hh)) (xblk V c ⟨n + 1, h⟩) (ablk V c ⟨n + 1, h⟩) (gblk V c ⟨n + 1, h⟩) (wblk V c ⟨n + 1, h⟩) (bblk V c ⟨n + 1, h⟩)
      (outsAt2 V c ((⟨n + 1, h⟩ : Fin cfg2.N).val - 1) (Nat.lt_of_le_of_lt (Nat.sub_le _ _) (⟨n + 1, h⟩ : Fin cfg2.N).isLt))) (ix2 g d)).trans ?_
    rw [pay2_apply, Finset.sum_range_succ]
    show outsAt2 V c n (Nat.lt_of_succ_lt h) (ix2 g d) + _ = _
    rw [outsAt_apply c n (Nat.lt_of_succ_lt h) g d]
    exact congrArg _ (step_sum V c ⟨n + 1, h⟩ g d)

/-- Ten blocks of 10000 rows are the 100000 rows. -/
theorem sum_blocks (f : Fin 100000 → EReal) :
    ∑ s ∈ Finset.range 10, (if hs : s < 10 then ∑ r : Fin 10000, f (row s hs r) else 0) = ∑ R : Fin 100000, f R := by
  rw [Finset.sum_range]
  have e : ∀ s : Fin 10, (if hs : s.val < 10 then ∑ r : Fin 10000, f (row s.val hs r) else 0)
      = ∑ r : Fin 10000, f (row s.val s.isLt r) := fun s => dif_pos s.isLt
  rw [Finset.sum_congr rfl fun s _ => e s]
  rw [← Fintype.sum_prod_type (f := fun p : Fin 10 × Fin 10000 => f (row p.1.val p.1.isLt p.2))]
  exact Fintype.sum_equiv (finProdFinEquiv (m := 10) (n := 10000)) _ _ fun p => congrArg f (Fin.ext (by
    show 10000 * p.1.val + p.2.val = p.2.val + 10000 * p.1.val
    omega))

/-- The pooled array: at (g, d) the shares of all 100000 rows. -/
def pooled (c : Dev nD) : Vec Ideal S512x128 .f32 := fun i => ∑ R : Fin 100000, term V c (i 0) (i 1) R

/-- After the last point the accumulator is the pooled array. -/
theorem outs_last (c : Dev nD) (h : 9 < cfg2.N) : outsAt2 V c 9 h = pooled V c := by
  funext i
  obtain ⟨g, d, rfl⟩ : ∃ (g : Fin 512) (d : Fin 128), i = ix2 g d := ⟨i 0, i 1, ValueIdx.eq_ix2 i⟩
  rw [outsAt_apply V c 9 h g d]
  exact sum_blocks (term V c g d)

end Fold

section WriteBack

/-- The one write-back, at the last point, writes the pooled array: block (0, 0) of the 512 × 128 array is the array. -/
theorem flushed_eq (c : Dev nD) (t : Fin cfg2.N) (hf : (cfg2.win 5).flush t = true) :
    (dat2 V c).flushed 5 t = ((cfg2.win 5).blk t).view.read (Elt Ideal) (pooled V c) := by
  have hN : cfg2.N = 10 := N_2
  have h9 : t.val = 9 := by have := (flush2_5 t).mp hf; have := t.isLt; omega
  obtain rfl : t = t2_9 := Fin.ext h9
  show (cfg2.win 5).cut (grid2.coords t2_9) ((dat2 V c).after 5 t2_9) = _
  have e : outsAt2 V c t2_9.val t2_9.isLt = pooled V c := outs_last V c t2_9.isLt
  rw [after2_5, e]
  have hz' : (fun a => win2_5.index t2_9 a * main_v43.ty.shape.size a) = fun _ => 0 := funext fun a => by fin_cases a <;> decide
  exact (Memref.read_access_unit_zero (Elt Ideal) main_v43 hz' (fun a => by rw [congrFun hz' a]; simp) (pooled V c)).symm

end WriteBack

/-- After the third call its output array holds, at (g, c), the sum over the rows whose graph id is the word g of the
    layer's affine part at (r, c). -/
theorem final2 (c : Dev nD) :
    (dat2 (F := Ideal) V c).arrAt 5 cfg2.N
      = fun i => ∑ r : Fin 100000,
          if V c main_v42 (ix2 r 0) = BitVec.ofNat 32 (i 0).val
          then Cert.Spec.lin (V c main_v29) (V c main_v39) (V c main_v40) (V c main_v41) (ix2 r (i 1)) else 0 :=
  (dat2 V c).arrAt_eq_of_cover 5 (pooled V c) (flushed_eq V c) fun i =>
    ⟨t2_9, (flush2_5 t2_9).mpr rfl, by
      show i ∈ ((View.whole main_v43).slice (win2_5.rect t2_9)).set
      rw [View.set_slice_whole, Rect.mem_set_unit]
      intro a
      have h0 : (i 0 : Nat) < 512 := (i 0).isLt
      have h1 : (i 1 : Nat) < 128 := (i 1).isLt
      match a with
      | ⟨0, _⟩ =>
        show win2_5.index t2_9 0 * win2_5.size 0 ≤ (i 0 : Nat) ∧ (i 0 : Nat) < win2_5.index t2_9 0 * win2_5.size 0 + win2_5.xsize (grid2.coords t2_9) 0
        rw [show win2_5.index t2_9 0 * win2_5.size 0 = 0 from by decide +kernel, show win2_5.xsize (grid2.coords t2_9) 0 = 512 from by decide +kernel]; omega
      | ⟨1, _⟩ =>
        show win2_5.index t2_9 1 * win2_5.size 1 ≤ (i 1 : Nat) ∧ (i 1 : Nat) < win2_5.index t2_9 1 * win2_5.size 1 + win2_5.xsize (grid2.coords t2_9) 1
        rw [show win2_5.index t2_9 1 * win2_5.size 1 = 0 from by decide +kernel, show win2_5.xsize (grid2.coords t2_9) 1 = 128 from by decide +kernel]; omega⟩

end Cert.KernelIdeal.PoolValue

end
-- ==== Proof.ScatterRead.lean ====
/-
  The reference's pooling scatter-add, read at an index.
  With one scatter index per update row (the row's graph id, read signed and not clamped) and the window along the
  feature axis, update element (r, c') lands on operand element (g, c) exactly when id r, as an integer, is g and
  c' = c; an id outside 0 … 511 lands nowhere. For g below 512 "the integer is g" is "the word is g". So entry (g, c)
  of the result is the operand's entry plus the sum of upd (r, c) over the rows r whose id is the word g.
-/
import proofs.«429753_j10574209483251_2_alg».proof.ReferenceIdeal
import proofs.«429753_j10574209483251_2_alg».proof.Proof.Gen.ReferenceIdeal
import Idealize.ShloMosaic.PureOps.Ideal
import Idealize.ShloMosaic.Lib.ValueIdx

noncomputable section

open Idealize.ShloMosaic Idealize.ShloMosaic.ValueIdx

namespace Cert.ReferenceIdeal.ScatterRead

open Cert.ReferenceIdeal Cert.ReferenceIdeal.Gen

private abbrev d := scatter_S512x128_S100000x1_S100000x128_1_0_0_1

/-! The record's short axis lists, decided once. -/

theorem sdto_mem0 : (0 : Fin S512x128.rank) ∈ d.scatterDimsToOperandDims := by decide
theorem sdto_nmem1 : ¬ (1 : Fin S512x128.rank) ∈ d.scatterDimsToOperandDims := by decide
theorem sKept_nmem0 : ¬ (0 : Fin S512x128.rank) ∈ d.sKept := by decide
theorem sKept_mem1 : (1 : Fin S512x128.rank) ∈ d.sKept := by decide

/-- The one update scatter axis is the updates' axis 0. -/
theorem uScatter_at : ∀ h, d.uScatter[List.idxOf (0 : Fin S100000x1.rank) d.siKept]'h = (0 : Fin S100000x128.rank) := by
  intro h; rfl

/-- The one window axis is the updates' axis 1. -/
theorem uWindow_at : ∀ h, d.updateWindowDims[List.idxOf (1 : Fin S512x128.rank) d.sKept]'h = (1 : Fin S100000x128.rank) := by
  intro h; rfl

/-- The scatter-indices index an update reads: its row on axis 0. -/
theorem siIdx_0 (j : S100000x128.Idx) (c : Fin d.scatterDimsToOperandDims.length) :
    (d.siIdx j c 0).val = (j 0).val := by
  unfold ScatterDims.siIdx
  rw [dif_neg (by decide)]
  unfold ScatterDims.siCoord
  show (j (d.uScatter[List.idxOf (0 : Fin S100000x1.rank) d.siKept]'_)).val = (j 0).val
  rw [uScatter_at]

/-- … and the index vector's one component on axis 1. -/
theorem siIdx_1 (j : S100000x128.Idx) (c : Fin d.scatterDimsToOperandDims.length) :
    (d.siIdx j c 1).val = 0 := by
  unfold ScatterDims.siIdx
  rw [dif_pos (by decide)]
  show c.val = 0
  have : c.val < 1 := c.isLt
  omega

theorem siIdx_eq (a : Fin 100000) (b : Fin 128) (c : Fin d.scatterDimsToOperandDims.length) :
    d.siIdx (ix2 a b) c = ix2 a (0 : Fin 1) := by
  funext k
  match k with
  | ⟨0, _⟩ => exact Fin.ext (siIdx_0 (ix2 a b) c)
  | ⟨1, _⟩ => exact Fin.ext (siIdx_1 (ix2 a b) c)

/-- On the operand's axis 0 the window starts at the row's id, read signed. -/
theorem start_0 (a : Fin 100000) (b : Fin 128) (idx : IVec S100000x1 32) :
    d.start (ix2 a b) idx 0 = (idx (ix2 a (0 : Fin 1))).toInt := by
  unfold ScatterDims.start
  rw [dif_pos sdto_mem0, siIdx_eq]

/-- On axis 1 it starts at 0. -/
theorem start_1 (j : S100000x128.Idx) (idx : IVec S100000x1 32) :
    d.start j idx 1 = 0 := by
  unfold ScatterDims.start
  rw [dif_neg sdto_nmem1]

/-- Axis 0 is inserted: no window coordinate. -/
theorem window_0 (j : S100000x128.Idx) : d.window j 0 = 0 := by
  unfold ScatterDims.window
  rw [dif_neg sKept_nmem0]

/-- Axis 1 carries the update's column. -/
theorem window_1 (a : Fin 100000) (b : Fin 128) : d.window (ix2 a b) 1 = b.val := by
  unfold ScatterDims.window
  rw [dif_pos sKept_mem1]
  show ((ix2 a b : S100000x128.Idx) (d.updateWindowDims[List.idxOf (1 : Fin S512x128.rank) d.sKept]'_)).val = b.val
  rw [uWindow_at]

/-- A graph number below 512, as a 32-bit word, reads back signed as itself. -/
theorem toInt_ofNat_small (n : Nat) (h : n < 512) : (BitVec.ofNat 32 n).toInt = (n : Int) := by
  rw [BitVec.toInt_eq_toNat_cond, BitVec.toNat_ofNat]
  have e : n % 2 ^ 32 = n := Nat.mod_eq_of_lt (by omega)
  rw [e, if_pos (by omega)]

/-- For a number below 512, "the word read signed is that number" is "the word is that number's word". -/
theorem toInt_eq_iff (x : BitVec 32) (n : Nat) (h : n < 512) : x.toInt = (n : Int) ↔ x = BitVec.ofNat 32 n := by
  constructor
  · intro e
    apply BitVec.eq_of_toInt_eq
    rw [e, toInt_ofNat_small n h]
  · rintro rfl
    exact toInt_ofNat_small n h

/-- Update element (a, b) lands on operand element (g, c) exactly when row a's id is the word g and b = c. -/
theorem resultIdx?_iff (a : Fin 100000) (b : Fin 128) (idx : IVec S100000x1 32) (g : Fin 512) (c : Fin 128) :
    d.resultIdx? (ix2 a b) idx = some (ix2 g c) ↔ idx (ix2 a (0 : Fin 1)) = BitVec.ofNat 32 g.val ∧ b = c := by
  have hs0 := start_0 a b idx
  have hs1 := start_1 (ix2 a b) idx
  have hw0 := window_0 (ix2 a b)
  have hw1 := window_1 a b
  have hg : g.val < 512 := g.isLt
  have hb : b.val < 128 := b.isLt
  rw [← toInt_eq_iff _ _ hg]
  unfold ScatterDims.resultIdx?
  constructor
  · intro h
    by_cases hc : ∀ k, 0 ≤ d.start (ix2 a b) idx k + d.window (ix2 a b) k ∧
        d.start (ix2 a b) idx k + d.window (ix2 a b) k < S512x128.size k
    · rw [dif_pos hc] at h
      have h' := Option.some.inj h
      have e0 : (d.start (ix2 a b) idx 0 + (d.window (ix2 a b) 0 : Int)).toNat = g.val :=
        congrArg Fin.val (congrFun h' 0)
      have e1 : (d.start (ix2 a b) idx 1 + (d.window (ix2 a b) 1 : Int)).toNat = c.val :=
        congrArg Fin.val (congrFun h' 1)
      have p0 := (hc 0).1
      rw [hs0, hw0] at e0 p0
      rw [hs1, hw1] at e1
      exact ⟨by omega, Fin.ext (by omega)⟩
    · rw [dif_neg hc] at h
      exact absurd h (by simp)
  · rintro ⟨h0, rfl⟩
    have hc : ∀ k, 0 ≤ d.start (ix2 a b) idx k + d.window (ix2 a b) k ∧
        d.start (ix2 a b) idx k + d.window (ix2 a b) k < S512x128.size k := by
      refine Fin.forall_fin_two.2 ⟨?_, ?_⟩
      · rw [hs0, hw0, h0]
        show (0 : Int) ≤ (g.val : Int) + ((0 : Nat) : Int) ∧ (g.val : Int) + ((0 : Nat) : Int) < ((512 : Nat) : Int)
        omega
      · rw [hs1, hw1]
        show (0 : Int) ≤ 0 + (b.val : Int) ∧ 0 + (b.val : Int) < ((128 : Nat) : Int)
        omega
    rw [dif_pos hc]
    refine congrArg some (funext fun k => ?_)
    match k with
    | ⟨0, _⟩ =>
      apply Fin.ext
      show (d.start (ix2 a b) idx 0 + (d.window (ix2 a b) 0 : Int)).toNat = g.val
      rw [hs0, hw0, h0]; omega
    | ⟨1, _⟩ =>
      apply Fin.ext
      show (d.start (ix2 a b) idx 1 + (d.window (ix2 a b) 1 : Int)).toNat = b.val
      rw [hs1, hw1]; omega

/-- One update row's contribution to operand element (g, c): of its 128 columns only column c can land there, and it
    does exactly when the row's id is the word g. -/
theorem row_sum (r : Fin 100000) (idx : IVec S100000x1 32) (upd : S100000x128.Idx → EReal) (g : Fin 512) (c : Fin 128) :
    (∑ b : Fin 128, if d.resultIdx? (ix2 r b) idx = some (ix2 g c) then upd (ix2 r b) else 0)
      = if idx (ix2 r (0 : Fin 1)) = BitVec.ofNat 32 g.val then upd (ix2 r c) else 0 := by
  rw [Finset.sum_eq_single c]
  · exact if_congr ((resultIdx?_iff r c idx g c).trans (and_iff_left rfl)) rfl rfl
  · intro b _ hbc
    exact if_neg (fun h => hbc ((resultIdx?_iff r b idx g c).1 h).2)
  · intro h; exact absurd (Finset.mem_univ c) h

theorem pool_scatter_apply (z : S512x128.Idx → EReal) (idx : IVec S100000x1 32) (upd : S100000x128.Idx → EReal)
    (i : S512x128.Idx) :
    Ideal.hostScatterAdd scatter_S512x128_S100000x1_S100000x128_1_0_0_1 z idx upd i
      = z i + ∑ r : Fin 100000, if idx (ix2 r 0) = BitVec.ofNat 32 (i 0).val then upd (ix2 r (i 1)) else 0 := by
  obtain ⟨g, c, rfl⟩ : ∃ (g : Fin 512) (c : Fin 128), i = ix2 g c := ⟨i 0, i 1, eq_ix2 i⟩
  show z (ix2 g c) + ∑ j ∈ Finset.univ.filter (fun j => d.resultIdx? j idx = some (ix2 g c)), upd j
      = z (ix2 g c) + ∑ r : Fin 100000, if idx (ix2 r (0 : Fin 1)) = BitVec.ofNat 32 g.val then upd (ix2 r c) else 0
  rw [Finset.sum_filter, sum_idx2]
  exact congrArg (z (ix2 g c) + ·) (Finset.sum_congr rfl (fun r _ => row_sum r idx upd g c))

end Cert.ReferenceIdeal.ScatterRead

end
-- ==== Proof.RefStages.lean ====
/-
  The reference, cut where the kernel's pallas_calls sit.
  Both programs compute the neighbourhood sum of a feature array the same way (a gather of the rows the edge list's
  sources name, after wrapping negative sources, scattered-and-added onto the rows its targets name), and both finish
  the same way (divide the pooled sums by the clamped node counts, multiply by the head's weights, add its bias).
  `aggR` and `headR` name those two shared pieces as functions of what they read, so that the reference's stages are
  `aggR`, one layer's affine part, `aggR`, one layer's affine part, `aggR`, the pooled affine part, `headR`.
-/
import proofs.«429753_j10574209483251_2_alg».proof.Proof.Gen.ReferenceIdeal.Read

noncomputable section

open Idealize.ShloMosaic

namespace Cert.ReferenceIdeal.Stages

open Cert.ReferenceIdeal Cert.ReferenceIdeal.Gen Cert.ReferenceIdeal.Read

variable {F : FTy → Type} [FloatOps F]

/-- The neighbourhood sum of the features `h` along the edge list `x1`. -/
def aggR (h : (⟨S100000x128, .f32⟩ : BufTy).Contents (Elt F)) (x1 : (⟨S2x1600000, .i32⟩ : BufTy).Contents (Elt F)) :
    (⟨S100000x128, .f32⟩ : BufTy).Contents (Elt F) :=
  Host.scatterAdd scatter_S100000x128_S1600000x1_S1600000x128_1_0_0_1 (val_main_v11 (F := F)) (val_main_v12 (F := F) x1)
    (Host.gather gather_S100000x128_S1600000x1_S1600000x128_1_0_n_n_0_1_1128 h (val_main_v9 (F := F) x1))

/-- The head: the pooled sums `s` over the clamped node counts of the graph ids `x2`, times the head's weights `x9`, plus its bias `x10`. -/
def headR (s : (⟨S512x128, .f32⟩ : BufTy).Contents (Elt F)) (x2 : (⟨S100000, .i32⟩ : BufTy).Contents (Elt F))
    (x9 : (⟨S10x128, .f32⟩ : BufTy).Contents (Elt F)) (x10 : (⟨S10, .f32⟩ : BufTy).Contents (Elt F)) :
    (⟨S512x10, .f32⟩ : BufTy).Contents (Elt F) :=
  addf (Host.dotGeneral dot_S512x128_S128x10_S512x10_1_0_0_1_n_n none (Host.divf s (val_main_v64 (F := F) x2)) (val_main_v66 (F := F) x9))
    (val_main_v69 (F := F) x10)

variable (x0 : (⟨S100000x128, .f32⟩ : BufTy).Contents (Elt F)) (x1 : (⟨S2x1600000, .i32⟩ : BufTy).Contents (Elt F))
  (x2 : (⟨S100000, .i32⟩ : BufTy).Contents (Elt F))
  (x3 : (⟨S128x128, .f32⟩ : BufTy).Contents (Elt F)) (x4 : (⟨S128, .f32⟩ : BufTy).Contents (Elt F))
  (x5 : (⟨S128x128, .f32⟩ : BufTy).Contents (Elt F)) (x6 : (⟨S128, .f32⟩ : BufTy).Contents (Elt F))
  (x7 : (⟨S128x128, .f32⟩ : BufTy).Contents (Elt F)) (x8 : (⟨S128, .f32⟩ : BufTy).Contents (Elt F))
  (x9 : (⟨S10x128, .f32⟩ : BufTy).Contents (Elt F)) (x10 : (⟨S10, .f32⟩ : BufTy).Contents (Elt F))

theorem v13_eq : val_main_v13 (F := F) x0 x1 = aggR x0 x1 := rfl
theorem v30_eq : val_main_v30 (F := F) x0 x1 x3 x4 = aggR (val_main_v20 (F := F) x0 x1 x3 x4) x1 := rfl
theorem v47_eq : val_main_v47 (F := F) x0 x1 x3 x4 x5 x6 = aggR (val_main_v37 (F := F) x0 x1 x3 x4 x5 x6) x1 := rfl
theorem v70_eq : val_main_v70 (F := F) x0 x1 x2 x3 x4 x5 x6 x7 x8 x9 x10
    = headR (val_main_v56 (F := F) x0 x1 x2 x3 x4 x5 x6 x7 x8) x2 x9 x10 := rfl

end Cert.ReferenceIdeal.Stages

end
-- ==== Proof.HostA.lean ====
/-
  The kernel's host operations before its first and before its second pallas_call, read back.
  Before the first call @main cuts the edge list into sources and targets, forms the neighbourhood sum of the input
  features, transposes the first weight matrix and lays the first bias out as a 1 × 128 row. Before the second it does
  the same with the first call's output and the second layer's parameters. Each buffer a call reads is named here as a
  function of the launch memory and of the previous call's output array.
-/
import proofs.«429753_j10574209483251_2_alg».proof.Proof.Gen.KernelIdeal.Frame
import proofs.«429753_j10574209483251_2_alg».proof.Proof.RefStages
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx

namespace Cert.KernelIdeal.HostValue

open Cert.KernelIdeal Cert.KernelIdeal.Gen
open Cert.ReferenceIdeal.Stages (aggR headR)

variable (m : (ℓ : Loc nD τ sig) → Buf (Elt Ideal) ℓ) (ρ : Dev nD → PrngReg)

/-- A buffer that no operation of a stretch of host operations writes holds afterwards what it held before: the
    stretch's written buffers are listed and each is told apart from the buffer asked about. -/
local macro "host_keeps " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-- A vector of 128 entries laid out as a 1 × 128 row: the row's entry `(0, q)` is the vector's entry `q`
    (both sit at row-major position `q`). -/
private theorem row_apply (x : S128.Idx → EReal) (q : Fin 128) :
    shapeCast S1x128 x shapeCasts_S128_S1x128 (ix2 0 q) = x (ix1 q) :=
  shapeCast_apply x shapeCasts_S128_S1x128 (ix2 (0 : Fin 1) q) (ix1 q) (by
    rw [Shape.rowMajor_val_two, Shape.rowMajor_val_one]
    show q.val = 0 * 128 + q.val
    omega)

/-! ## Before the first call -/

/-- The input features are an argument: none of the first stretch's operations writes them. -/
theorem W1_arg0 (c : Dev nD) : W1 m ρ c (Proc.devRef .tc main_arg0) = m ((c.tc : Thread nD τ).loc main_arg0) :=
  calc W1 m ρ c (Proc.devRef .tc main_arg0)
    _ = W0 m ρ c (Proc.devRef .tc main_arg0) := by host_keeps hostOps0
    _ = m ((c.tc : Thread nD τ).loc main_arg0) := rfl

/-- The first stretch's scatter-add is the reference's neighbourhood sum of the input features: the same operations
    on the same edge list, composed in the same order. -/
theorem W1_v13 (c : Dev nD) : W1 m ρ c (Proc.devRef .tc main_v13)
    = aggR (m ((c.tc : Thread nD τ).loc main_arg0)) (m ((c.tc : Thread nD τ).loc main_arg1)) := by
  show StableHlo.after hostOps0 _ (Proc.devRef .tc main_v13) = _
  after_results
  rfl

/-- The first weight matrix, transposed. -/
theorem W1_v14 (c : Dev nD) : W1 m ρ c (Proc.devRef .tc main_v14)
    = Cert.ReferenceIdeal.Read.val_main_v15 (F := Ideal) (m ((c.tc : Thread nD τ).loc main_arg3)) := by
  show StableHlo.after hostOps0 _ (Proc.devRef .tc main_v14) = _
  after_results
  rfl

/-- The first bias as a 1 × 128 row, read at `(0, q)`. -/
theorem W1_v15 (c : Dev nD) (q : Fin 128) : W1 m ρ c (Proc.devRef .tc main_v15) (ix2 0 q)
    = m ((c.tc : Thread nD τ).loc main_arg4) (ix1 q) := by
  have e : (W1 m ρ c (Proc.devRef .tc main_v15) : S1x128.Idx → EReal)
      = shapeCast S1x128 (m ((c.tc : Thread nD τ).loc main_arg4) : S128.Idx → EReal) shapeCasts_S128_S1x128 := by
    show StableHlo.after hostOps0 _ (Proc.devRef .tc main_v15) = _
    after_results
    rfl
  exact (congrFun e (ix2 0 q)).trans (row_apply _ q)

/-! ## Before the second call -/

/-- The sources of the edge list, cut out once before the first call, are still there after it: the first call's
    arrays do not include them. -/
private theorem W2_v1 (c : Dev nD) : W2 m ρ c (Proc.devRef .tc main_v1)
    = Cert.ReferenceIdeal.Read.val_main_v1 (F := Ideal) (m ((c.tc : Thread nD τ).loc main_arg1)) := by
  rw [W2_of_ne m ρ c main_v1 (by decide)]
  show StableHlo.after hostOps0 _ (Proc.devRef .tc main_v1) = _
  after_results
  rfl

/-- Likewise the targets of the edge list. -/
private theorem W2_v3 (c : Dev nD) : W2 m ρ c (Proc.devRef .tc main_v3)
    = Cert.ReferenceIdeal.Read.val_main_v3 (F := Ideal) (m ((c.tc : Thread nD τ).loc main_arg1)) := by
  rw [W2_of_ne m ρ c main_v3 (by decide)]
  show StableHlo.after hostOps0 _ (Proc.devRef .tc main_v3) = _
  after_results
  rfl

/-- An argument that is no array of the first call and that the first stretch does not write is, after the first
    call, what was launched. -/
private theorem W2_arg5 (c : Dev nD) : W2 m ρ c (Proc.devRef .tc main_arg5) = m ((c.tc : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := by host_keeps hostOps0
    _ = m ((c.tc : Thread nD τ).loc main_arg5) := rfl

private theorem W2_arg6 (c : Dev nD) : W2 m ρ c (Proc.devRef .tc main_arg6) = m ((c.tc : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := by host_keeps hostOps0
    _ = m ((c.tc : Thread nD τ).loc main_arg6) := rfl

/-- The first call's output is not written by the second stretch. -/
theorem W3_v16 (c : Dev nD) : W3 m ρ c (Proc.devRef .tc main_v16) = W2 m ρ c (Proc.devRef .tc main_v16) := by
  host_keeps hostOps1

/-- The second stretch's scatter-add is the reference's neighbourhood sum of the first call's output, along the same
    edge list. -/
theorem W3_v26 (c : Dev nD) : W3 m ρ c (Proc.devRef .tc main_v26)
    = aggR (W2 m ρ c (Proc.devRef .tc main_v16)) (m ((c.tc : Thread nD τ).loc main_arg1)) := by
  show StableHlo.after hostOps1 _ (Proc.devRef .tc main_v26) = _
  after_results
  rw [W2_v1 m ρ c, W2_v3 m ρ c]
  rfl

/-- The second weight matrix, transposed. -/
theorem W3_v27 (c : Dev nD) : W3 m ρ c (Proc.devRef .tc main_v27)
    = Cert.ReferenceIdeal.Read.val_main_v32 (F := Ideal) (m ((c.tc : Thread nD τ).loc main_arg5)) := by
  show StableHlo.after hostOps1 _ (Proc.devRef .tc main_v27) = _
  after_results
  rw [W2_arg5 m ρ c]
  rfl

/-- The second bias as a 1 × 128 row, read at `(0, q)`. -/
theorem W3_v28 (c : Dev nD) (q : Fin 128) : W3 m ρ c (Proc.devRef .tc main_v28) (ix2 0 q)
    = m ((c.tc : Thread nD τ).loc main_arg6) (ix1 q) := by
  have e : (W3 m ρ c (Proc.devRef .tc main_v28) : S1x128.Idx → EReal)
      = shapeCast S1x128 (m ((c.tc : Thread nD τ).loc main_arg6) : S128.Idx → EReal) shapeCasts_S128_S1x128 := by
    show StableHlo.after hostOps1 _ (Proc.devRef .tc main_v28) = _
    after_results
    rw [W2_arg6 m ρ c]
    rfl
  exact (congrFun e (ix2 0 q)).trans (row_apply _ q)

end Cert.KernelIdeal.HostValue

end
-- ==== Proof.HostB.lean ====
/-
  The kernel's host operations before its third pallas_call and after it, read back.
  Before the third call @main forms the neighbourhood sum of the second call's output, transposes the third weight
  matrix, lays the third bias out as a row and the graph ids out as a column. After it, @main counts the nodes of each
  graph, divides the pooled sums by the clamped counts and applies the head. Each buffer is named here as a function
  of the launch memory and of the calls' output arrays.
-/
import proofs.«429753_j10574209483251_2_alg».proof.Proof.Gen.KernelIdeal.Frame
import proofs.«429753_j10574209483251_2_alg».proof.Proof.RefStages
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx

namespace Cert.KernelIdeal.HostValue

open Cert.KernelIdeal Cert.KernelIdeal.Gen
open Cert.ReferenceIdeal.Stages (aggR headR)

variable (m : (ℓ : Loc nD τ sig) → Buf (Elt Ideal) ℓ) (ρ : Dev nD → PrngReg)

/-! ## Buffers a stretch of host operations leaves alone

A buffer that no operation of a stretch writes holds after the stretch what it held before it. The write set of each
operation is the singleton of its result buffer, so the side condition is a list of inequalities between buffer names. -/

local macro "unwritten" "[" l:ident "]" : tactic => `(tactic|
  (refine List.forall_iff_forall_mem.mp ?_
   simp only [$l:ident, List.flatten_cons, List.flatten_nil, List.append_nil, List.cons_append,
     List.nil_append, List.Forall, StableHlo.nullary_writes, StableHlo.unary_writes, StableHlo.binary_writes,
     StableHlo.ternary_writes, StableHlo.quaternary_writes, StableHlo.reshape_writes, StableHlo.binaryIndexed_writes,
     Finset.mem_singleton]
   repeat' apply And.intro
   all_goals exact StableHlo.devRef_ne_of_ne (by decide)))

/-! ## The edge list's two rows

The sources (row 0) and the targets (row 1) of the edge list are cut out once, before the first call, and no later
operation and no call writes them: at every later boundary they are still the reference's two slices of the launched
edge list. -/

private theorem W1_v1 (c : Dev nD) : W1 m ρ c (Proc.devRef .tc main_v1)
    = Cert.ReferenceIdeal.Read.val_main_v1 (F := Ideal) (m ((c.tc : Thread nD τ).loc main_arg1)) := by
  show StableHlo.after hostOps0 _ (Proc.devRef .tc main_v1) = _
  after_results
  rfl

private theorem W1_v3 (c : Dev nD) : W1 m ρ c (Proc.devRef .tc main_v3)
    = Cert.ReferenceIdeal.Read.val_main_v3 (F := Ideal) (m ((c.tc : Thread nD τ).loc main_arg1)) := by
  show StableHlo.after hostOps0 _ (Proc.devRef .tc main_v3) = _
  after_results
  rfl

private theorem W4_v1 (c : Dev nD) : W4 m ρ c (Proc.devRef .tc main_v1)
    = Cert.ReferenceIdeal.Read.val_main_v1 (F := Ideal) (m ((c.tc : Thread nD τ).loc main_arg1)) :=
  calc W4 m ρ c (Proc.devRef .tc main_v1)
    _ = W3 m ρ c (Proc.devRef .tc main_v1) := W4_of_ne m ρ c main_v1 (by decide)
    _ = W2 m ρ c (Proc.devRef .tc main_v1) :=
          StableHlo.after_of_forall_not_mem (b := Proc.devRef .tc main_v1) _ _ (by unwritten [hostOps1])
    _ = W1 m ρ c (Proc.devRef .tc main_v1) := W2_of_ne m ρ c main_v1 (by decide)
    _ = _ := W1_v1 m ρ c

private theorem W4_v3 (c : Dev nD) : W4 m ρ c (Proc.devRef .tc main_v3)
    = Cert.ReferenceIdeal.Read.val_main_v3 (F := Ideal) (m ((c.tc : Thread nD τ).loc main_arg1)) :=
  calc W4 m ρ c (Proc.devRef .tc main_v3)
    _ = W3 m ρ c (Proc.devRef .tc main_v3) := W4_of_ne m ρ c main_v3 (by decide)
    _ = W2 m ρ c (Proc.devRef .tc main_v3) :=
          StableHlo.after_of_forall_not_mem (b := Proc.devRef .tc main_v3) _ _ (by unwritten [hostOps1])
    _ = W1 m ρ c (Proc.devRef .tc main_v3) := W2_of_ne m ρ c main_v3 (by decide)
    _ = _ := W1_v3 m ρ c

/-! ## Buffers nothing writes before the third call, and buffers nothing writes at all

A buffer that neither of the first two stretches of host operations writes and that is no array of the first two
calls holds, when the third stretch starts, what was launched. One that in addition the third stretch does not write
and that is no array of the third call still holds it when the last stretch starts. -/

private theorem W4_launched (c : Dev nD) (b : Ref sig .tc)
    (h0 : ∀ op ∈ (hostOps0 : List (HloOp τ sig (Elt Ideal))), Proc.devRef .tc b ∉ op.writes)
    (a0 : ∀ w, Pipeline.arrRef spec0 w ≠ b)
    (h1 : ∀ op ∈ (hostOps1 : List (HloOp τ sig (Elt Ideal))), Proc.devRef .tc b ∉ op.writes)
    (a1 : ∀ w, Pipeline.arrRef spec1 w ≠ b) :
    W4 m ρ c (Proc.devRef .tc b) = m ((c.tc : Thread nD τ).loc b) :=
  calc W4 m ρ c (Proc.devRef .tc b)
    _ = W3 m ρ c (Proc.devRef .tc b) := W4_of_ne m ρ c b a1
    _ = W2 m ρ c (Proc.devRef .tc b) := StableHlo.after_of_forall_not_mem (b := Proc.devRef .tc b) _ _ h1
    _ = W1 m ρ c (Proc.devRef .tc b) := W2_of_ne m ρ c b a0
    _ = W0 m ρ c (Proc.devRef .tc b) := StableHlo.after_of_forall_not_mem (b := Proc.devRef .tc b) _ _ h0
    _ = m ((c.tc : Thread nD τ).loc b) := rfl

private theorem W6_launched (c : Dev nD) (b : Ref sig .tc)
    (h0 : ∀ op ∈ (hostOps0 : List (HloOp τ sig (Elt Ideal))), Proc.devRef .tc b ∉ op.writes)
    (a0 : ∀ w, Pipeline.arrRef spec0 w ≠ b)
    (h1 : ∀ op ∈ (hostOps1 : List (HloOp τ sig (Elt Ideal))), Proc.devRef .tc b ∉ op.writes)
    (a1 : ∀ w, Pipeline.arrRef spec1 w ≠ b)
    (h2 : ∀ op ∈ (hostOps2 : List (HloOp τ sig (Elt Ideal))), Proc.devRef .tc b ∉ op.writes)
    (a2 : ∀ w, Pipeline.arrRef spec2 w ≠ b) :
    W6 m ρ c (Proc.devRef .tc b) = m ((c.tc : Thread nD τ).loc b) :=
  calc W6 m ρ c (Proc.devRef .tc b)
    _ = W5 m ρ c (Proc.devRef .tc b) := W6_of_ne m ρ c b a2
    _ = W4 m ρ c (Proc.devRef .tc b) := StableHlo.after_of_forall_not_mem (b := Proc.devRef .tc b) _ _ h2
    _ = m ((c.tc : Thread nD τ).loc b) := W4_launched m ρ c b h0 a0 h1 a1

private theorem W4_arg2 (c : Dev nD) : W4 m ρ c (Proc.devRef .tc main_arg2) = m ((c.tc : Thread nD τ).loc main_arg2) :=
  W4_launched m ρ c main_arg2 (by unwritten [hostOps0]) (by decide) (by unwritten [hostOps1]) (by decide)
private theorem W4_arg7 (c : Dev nD) : W4 m ρ c (Proc.devRef .tc main_arg7) = m ((c.tc : Thread nD τ).loc main_arg7) :=
  W4_launched m ρ c main_arg7 (by unwritten [hostOps0]) (by decide) (by unwritten [hostOps1]) (by decide)
private theorem W4_arg8 (c : Dev nD) : W4 m ρ c (Proc.devRef .tc main_arg8) = m ((c.tc : Thread nD τ).loc main_arg8) :=
  W4_launched m ρ c main_arg8 (by unwritten [hostOps0]) (by decide) (by unwritten [hostOps1]) (by decide)

private theorem W6_arg2 (c : Dev nD) : W6 m ρ c (Proc.devRef .tc main_arg2) = m ((c.tc : Thread nD τ).loc main_arg2) :=
  W6_launched m ρ c main_arg2 (by unwritten [hostOps0]) (by decide) (by unwritten [hostOps1]) (by decide)
    (by unwritten [hostOps2]) (by decide)
private theorem W6_arg9 (c : Dev nD) : W6 m ρ c (Proc.devRef .tc main_arg9) = m ((c.tc : Thread nD τ).loc main_arg9) :=
  W6_launched m ρ c main_arg9 (by unwritten [hostOps0]) (by decide) (by unwritten [hostOps1]) (by decide)
    (by unwritten [hostOps2]) (by decide)
private theorem W6_arg10 (c : Dev nD) : W6 m ρ c (Proc.devRef .tc main_arg10) = m ((c.tc : Thread nD τ).loc main_arg10) :=
  W6_launched m ρ c main_arg10 (by unwritten [hostOps0]) (by decide) (by unwritten [hostOps1]) (by decide)
    (by unwritten [hostOps2]) (by decide)

/-! ## A vector laid out as a column

An array of shape [a] cast to [a, 1] reads, at (i, 0), the operand at i: both have row-major position i. -/

private theorem shapeCast_a_a1_apply {α : Type} {a : ℕ} (x : (⟨1, ![a]⟩ : Shape).Idx → α)
    (h : (⟨1, ![a]⟩ : Shape).ShapeCasts ⟨2, ![a, 1]⟩) (i : Fin a) :
    shapeCast ⟨2, ![a, 1]⟩ x h (ix2 i (0 : Fin 1)) = x (ix1 i) :=
  shapeCast_apply x h _ _ (by
    rw [Shape.rowMajor_val_two, Shape.rowMajor_val_one]
    show i.val = i.val * 1 + 0
    omega)

/-! ## Before the third call -/

theorem W5_v29 (c : Dev nD) : W5 m ρ c (Proc.devRef .tc main_v29) = W4 m ρ c (Proc.devRef .tc main_v29) :=
  StableHlo.after_of_forall_not_mem (b := Proc.devRef .tc main_v29) _ _ (by unwritten [hostOps2])

theorem W5_v39 (c : Dev nD) : W5 m ρ c (Proc.devRef .tc main_v39)
    = aggR (W4 m ρ c (Proc.devRef .tc main_v29)) (m ((c.tc : Thread nD τ).loc main_arg1)) := by
  show StableHlo.after hostOps2 _ (Proc.devRef .tc main_v39) = _
  after_results
  rw [W4_v1 m ρ c, W4_v3 m ρ c]
  rfl

theorem W5_v40 (c : Dev nD) : W5 m ρ c (Proc.devRef .tc main_v40)
    = Cert.ReferenceIdeal.Read.val_main_v49 (F := Ideal) (m ((c.tc : Thread nD τ).loc main_arg7)) := by
  show StableHlo.after hostOps2 _ (Proc.devRef .tc main_v40) = _
  after_results
  rw [W4_arg7 m ρ c]
  rfl

theorem W5_v41 (c : Dev nD) (q : Fin 128) : W5 m ρ c (Proc.devRef .tc main_v41) (ix2 0 q)
    = m ((c.tc : Thread nD τ).loc main_arg8) (ix1 q) := by
  have e : W5 m ρ c (Proc.devRef .tc main_v41)
      = shapeCast S1x128 (m ((c.tc : Thread nD τ).loc main_arg8)) shapeCasts_S128_S1x128 := by
    show StableHlo.after hostOps2 _ (Proc.devRef .tc main_v41) = _
    after_results
    rw [W4_arg8 m ρ c]
    rfl
  rw [e]
  exact shapeCast_a_1a_apply _ _ 0 q

theorem W5_v42 (c : Dev nD) (r : Fin 100000) : W5 m ρ c (Proc.devRef .tc main_v42) (ix2 r 0)
    = m ((c.tc : Thread nD τ).loc main_arg2) (ix1 r) := by
  have e : W5 m ρ c (Proc.devRef .tc main_v42)
      = shapeCast S100000x1 (m ((c.tc : Thread nD τ).loc main_arg2)) shapeCasts_S100000_S100000x1 := by
    show StableHlo.after hostOps2 _ (Proc.devRef .tc main_v42) = _
    after_results
    rw [W4_arg2 m ρ c]
    rfl
  rw [e]
  exact shapeCast_a_a1_apply _ _ r

/-! ## After the third call -/

theorem W7_v57 (c : Dev nD) : W7 m ρ c (Proc.devRef .tc main_v57)
    = headR (W6 m ρ c (Proc.devRef .tc main_v43)) (m ((c.tc : Thread nD τ).loc main_arg2))
        (m ((c.tc : Thread nD τ).loc main_arg9)) (m ((c.tc : Thread nD τ).loc main_arg10)) := by
  show StableHlo.after hostOps3 _ (Proc.devRef .tc main_v57) = _
  after_results
  rw [W6_arg2 m ρ c, W6_arg9 m ρ c, W6_arg10 m ρ c]
  rfl

end Cert.KernelIdeal.HostValue

end
-- ==== Proof.RefLayers.lean ====
/-
  The reference's three layers, index by index.
  A layer adds the neighbourhood sum to the features, multiplies by the transposed weights, adds the bias, and (the
  first two) clamps below at zero. Read at entry (r, c) that is max(∑ₖ (h r k + a r k) · wt k c + b 0 c, 0), the
  contraction running over the 128 input features: `Cert.Spec.lin` of the layer's four operands, clamped.
-/
import proofs.«429753_j10574209483251_2_alg».proof.Proof.RefStages
import proofs.«429753_j10574209483251_2_alg».proof.Proof.Spec
import Idealize.ShloMosaic.Lib.ValueIdx
import Idealize.ShloMosaic.PureOps.Ideal.Laws

noncomputable section

open Idealize.ShloMosaic Idealize.ShloMosaic.ValueIdx

namespace Cert.ReferenceIdeal.Layers

open Cert.ReferenceIdeal Cert.ReferenceIdeal.Gen Cert.ReferenceIdeal.Read
open Cert.ReferenceIdeal.Stages (aggR)
open Cert.Spec (lin)

variable (x0 : (⟨S100000x128, .f32⟩ : BufTy).Contents (Elt Ideal)) (x1 : (⟨S2x1600000, .i32⟩ : BufTy).Contents (Elt Ideal))
  (x3 : (⟨S128x128, .f32⟩ : BufTy).Contents (Elt Ideal)) (x4 : (⟨S128, .f32⟩ : BufTy).Contents (Elt Ideal))
  (x5 : (⟨S128x128, .f32⟩ : BufTy).Contents (Elt Ideal)) (x6 : (⟨S128, .f32⟩ : BufTy).Contents (Elt Ideal))
  (x7 : (⟨S128x128, .f32⟩ : BufTy).Contents (Elt Ideal)) (x8 : (⟨S128, .f32⟩ : BufTy).Contents (Elt Ideal))

/-! ## The index functions of the layers' operations are the coordinates' -/

theorem lidx16 (i : S100000x128.Idx) (k : Fin 128) : lidx_main_v16 i k = ix2 (i 0) k :=
  funext fun a => match a with | ⟨0, _⟩ => rfl | ⟨1, _⟩ => rfl
theorem ridx16 (i : S100000x128.Idx) (k : Fin 128) : ridx_main_v16 i k = ix2 k (i 1) :=
  funext fun a => match a with | ⟨0, _⟩ => rfl | ⟨1, _⟩ => rfl
theorem lidx33 (i : S100000x128.Idx) (k : Fin 128) : lidx_main_v33 i k = ix2 (i 0) k :=
  funext fun a => match a with | ⟨0, _⟩ => rfl | ⟨1, _⟩ => rfl
theorem ridx33 (i : S100000x128.Idx) (k : Fin 128) : ridx_main_v33 i k = ix2 k (i 1) :=
  funext fun a => match a with | ⟨0, _⟩ => rfl | ⟨1, _⟩ => rfl
theorem lidx50 (i : S100000x128.Idx) (k : Fin 128) : lidx_main_v50 i k = ix2 (i 0) k :=
  funext fun a => match a with | ⟨0, _⟩ => rfl | ⟨1, _⟩ => rfl
theorem ridx50 (i : S100000x128.Idx) (k : Fin 128) : ridx_main_v50 i k = ix2 k (i 1) :=
  funext fun a => match a with | ⟨0, _⟩ => rfl | ⟨1, _⟩ => rfl
theorem bidx18 (i : S100000x128.Idx) : idx_main_v18 i = ix2 0 (i 1) :=
  funext fun a => match a with | ⟨0, _⟩ => rfl | ⟨1, _⟩ => rfl
theorem bidx35 (i : S100000x128.Idx) : idx_main_v35 i = ix2 0 (i 1) :=
  funext fun a => match a with | ⟨0, _⟩ => rfl | ⟨1, _⟩ => rfl
theorem bidx52 (i : S100000x128.Idx) : idx_main_v52 i = ix2 0 (i 1) :=
  funext fun a => match a with | ⟨0, _⟩ => rfl | ⟨1, _⟩ => rfl

/-- The zero the clamp compares with. -/
theorem zero0 (i : S100000x128.Idx) : val_main_call0_v0 (F := Ideal) i = 0 := by
  rw [val_main_call0_v0_apply, val_main_call0_cst_apply]; exact Ideal.ofBits_zero_f32
theorem zero1 (i : S100000x128.Idx) : val_main_call1_v0 (F := Ideal) i = 0 := by
  rw [val_main_call1_v0_apply, val_main_call1_cst_apply]; exact Ideal.ofBits_zero_f32

/-! ## The layers -/

/-- The first layer's affine part. -/
theorem v19_eq : val_main_v19 (F := Ideal) x0 x1 x3 x4
    = lin x0 (aggR x0 x1) (val_main_v15 (F := Ideal) x3) (val_main_v17 (F := Ideal) x4) := by
  funext i
  rw [val_main_v19_apply, val_main_v16_apply, val_main_v18_apply, bidx18]
  simp only [lidx16, ridx16, lin]
  rfl

/-- The first layer. -/
theorem v20_eq : val_main_v20 (F := Ideal) x0 x1 x3 x4
    = fun i => max (lin x0 (aggR x0 x1) (val_main_v15 (F := Ideal) x3) (val_main_v17 (F := Ideal) x4) i) 0 := by
  funext i
  rw [val_main_v20_apply, v19_eq, zero0]
  rfl

/-- The second layer's affine part, over the first layer's output. -/
theorem v36_eq : val_main_v36 (F := Ideal) x0 x1 x3 x4 x5 x6
    = lin (val_main_v20 (F := Ideal) x0 x1 x3 x4) (aggR (val_main_v20 (F := Ideal) x0 x1 x3 x4) x1)
        (val_main_v32 (F := Ideal) x5) (val_main_v34 (F := Ideal) x6) := by
  funext i
  rw [val_main_v36_apply, val_main_v33_apply, val_main_v35_apply, bidx35]
  simp only [lidx33, ridx33, lin]
  rfl

/-- The second layer. -/
theorem v37_eq : val_main_v37 (F := Ideal) x0 x1 x3 x4 x5 x6
    = fun i => max (lin (val_main_v20 (F := Ideal) x0 x1 x3 x4) (aggR (val_main_v20 (F := Ideal) x0 x1 x3 x4) x1)
        (val_main_v32 (F := Ideal) x5) (val_main_v34 (F := Ideal) x6) i) 0 := by
  funext i
  rw [val_main_v37_apply, v36_eq, zero1]
  rfl

/-- The third layer (no clamp), over the second layer's output. -/
theorem v53_eq : val_main_v53 (F := Ideal) x0 x1 x3 x4 x5 x6 x7 x8
    = lin (val_main_v37 (F := Ideal) x0 x1 x3 x4 x5 x6) (aggR (val_main_v37 (F := Ideal) x0 x1 x3 x4 x5 x6) x1)
        (val_main_v49 (F := Ideal) x7) (val_main_v51 (F := Ideal) x8) := by
  funext i
  rw [val_main_v53_apply, val_main_v50_apply, val_main_v52_apply, bidx52]
  simp only [lidx50, ridx50, lin]
  rfl

/-! ## The bias rows and the id column, read at an index -/

theorem v17_at (q : Fin 128) : val_main_v17 (F := Ideal) x4 (ix2 0 q) = x4 (ix1 q) := by
  rw [val_main_v17_apply]; exact congrArg x4 (funext fun a => match a with | ⟨0, _⟩ => rfl)
theorem v34_at (q : Fin 128) : val_main_v34 (F := Ideal) x6 (ix2 0 q) = x6 (ix1 q) := by
  rw [val_main_v34_apply]; exact congrArg x6 (funext fun a => match a with | ⟨0, _⟩ => rfl)
theorem v51_at (q : Fin 128) : val_main_v51 (F := Ideal) x8 (ix2 0 q) = x8 (ix1 q) := by
  rw [val_main_v51_apply]; exact congrArg x8 (funext fun a => match a with | ⟨0, _⟩ => rfl)
theorem v55_at (x2 : (⟨S100000, .i32⟩ : BufTy).Contents (Elt Ideal)) (r : Fin 100000) :
    val_main_v55 (F := Ideal) x2 (ix2 r 0) = x2 (ix1 r) := by
  rw [val_main_v55_apply]; exact congrArg x2 (funext fun a => match a with | ⟨0, _⟩ => rfl)

/-- The zeros the pooling scatter-add starts from. -/
theorem v54_at (i : S512x128.Idx) : val_main_v54 (F := Ideal) i = 0 := by
  rw [val_main_v54_apply, val_main_cst_7_apply]; exact Ideal.ofBits_zero_f32

end Cert.ReferenceIdeal.Layers

/-! ## A layer reads its bias row only at row 0 -/

namespace Cert.Spec

theorem lin_congr {h a h' a' : SN.Idx → EReal} {wt wt' : SW.Idx → EReal} {b b' : SB.Idx → EReal}
    (hh : h = h') (ha : a = a') (hw : wt = wt') (hb : ∀ q : Fin 128, b (ix2 0 q) = b' (ix2 0 q)) :
    lin h a wt b = lin h' a' wt' b' := by
  subst hh ha hw
  funext i
  exact congrArg (fun z => (∑ k : Fin 128, (h (ix2 (i 0) k) + a (ix2 (i 0) k)) * wt (ix2 k (i 1))) + z) (hb (i 1))

end Cert.Spec

end
-- ==== Proof.Bridge.lean ====
/-
  The kernel's result is the reference's, stage by stage.
  Following the kernel's @main from the launch memory: its first call leaves the reference's first layer in its
  output array (the neighbourhood sum, the transposed weights and the bias row it read are the reference's, and a
  layer is the same contraction whether taken block by block or whole); its second call the second layer, over the
  first; its third call the pooled third layer — the sum, over the rows whose graph id is g, of the layer's affine
  part, which is what the reference's scatter-add of that affine part by graph id holds at row g; and the operations
  after it are the reference's head applied to that array.
-/
import proofs.«429753_j10574209483251_2_alg».proof.Proof.KernelRun
import proofs.«429753_j10574209483251_2_alg».proof.Proof.Dense
import proofs.«429753_j10574209483251_2_alg».proof.Proof.Pool
import proofs.«429753_j10574209483251_2_alg».proof.Proof.ScatterRead
import proofs.«429753_j10574209483251_2_alg».proof.Proof.HostA
import proofs.«429753_j10574209483251_2_alg».proof.Proof.HostB
import proofs.«429753_j10574209483251_2_alg».proof.Proof.RefLayers

set_option maxRecDepth 16384

noncomputable section

open Idealize.ShloMosaic Idealize.ShloMosaic.TcCoe Idealize.SL.Sem Idealize.ShloMosaic.ValueIdx

namespace Cert.KernelIdeal.Bridge

open Cert.KernelIdeal Cert.KernelIdeal.Gen
open Cert.ReferenceIdeal.Read
open Cert.ReferenceIdeal.Stages (aggR headR)
open Cert.ReferenceIdeal.Layers
open Cert.KernelIdeal.HostValue

variable (m : (ℓ : Loc nD τ sig) → Buf (Elt Ideal) ℓ) (ρ : Dev nD → PrngReg)

/-- The launch contents of the k-th argument. -/
abbrev X0 (c : Dev nD) := m ((c.tc : Thread nD τ).loc main_arg0)
abbrev X1 (c : Dev nD) := m ((c.tc : Thread nD τ).loc main_arg1)
abbrev X2 (c : Dev nD) := m ((c.tc : Thread nD τ).loc main_arg2)
abbrev X3 (c : Dev nD) := m ((c.tc : Thread nD τ).loc main_arg3)
abbrev X4 (c : Dev nD) := m ((c.tc : Thread nD τ).loc main_arg4)
abbrev X5 (c : Dev nD) := m ((c.tc : Thread nD τ).loc main_arg5)
abbrev X6 (c : Dev nD) := m ((c.tc : Thread nD τ).loc main_arg6)
abbrev X7 (c : Dev nD) := m ((c.tc : Thread nD τ).loc main_arg7)
abbrev X8 (c : Dev nD) := m ((c.tc : Thread nD τ).loc main_arg8)
abbrev X9 (c : Dev nD) := m ((c.tc : Thread nD τ).loc main_arg9)
abbrev X10 (c : Dev nD) := m ((c.tc : Thread nD τ).loc main_arg10)

/-- After the first call its output array is the reference's first layer. -/
theorem layer1 (c : Dev nD) : W2 m ρ c (Proc.devRef .tc main_v16)
    = val_main_v20 (F := Ideal) (X0 m c) (X1 m c) (X3 m c) (X4 m c) := by
  refine (W2_arr m ρ c 4).trans ?_
  rw [Cert.KernelIdeal.DenseValue.final0 (V1 m ρ) c, v20_eq]
  funext i
  refine congrArg (max · 0) (congrFun (Cert.Spec.lin_congr ?_ ?_ ?_ ?_) i)
  · exact W1_arg0 m ρ c
  · exact W1_v13 m ρ c
  · exact W1_v14 m ρ c
  · intro q; exact (W1_v15 m ρ c q).trans (v17_at (X4 m c) q).symm

/-- After the second call its output array is the reference's second layer. -/
theorem layer2 (c : Dev nD) : W4 m ρ c (Proc.devRef .tc main_v29)
    = val_main_v37 (F := Ideal) (X0 m c) (X1 m c) (X3 m c) (X4 m c) (X5 m c) (X6 m c) := by
  refine (W4_arr m ρ c 4).trans ?_
  rw [Cert.KernelIdeal.DenseValue.final1 (V3 m ρ) c, v37_eq]
  funext i
  refine congrArg (max · 0) (congrFun (Cert.Spec.lin_congr ?_ ?_ ?_ ?_) i)
  · exact (W3_v16 m ρ c).trans (layer1 m ρ c)
  · exact (W3_v26 m ρ c).trans (congrArg (aggR · (X1 m c)) (layer1 m ρ c))
  · exact W3_v27 m ρ c
  · intro q; exact (W3_v28 m ρ c q).trans (v34_at (X6 m c) q).symm

/-- After the third call its output array is the reference's pooled third layer. -/
theorem pooled (c : Dev nD) : W6 m ρ c (Proc.devRef .tc main_v43)
    = val_main_v56 (F := Ideal) (X0 m c) (X1 m c) (X2 m c) (X3 m c) (X4 m c) (X5 m c) (X6 m c) (X7 m c) (X8 m c) := by
  refine (W6_arr m ρ c 5).trans ?_
  rw [Cert.KernelIdeal.PoolValue.final2 (V5 m ρ) c]
  have hl : Cert.Spec.lin (V5 m ρ c main_v29) (V5 m ρ c main_v39) (V5 m ρ c main_v40) (V5 m ρ c main_v41)
      = val_main_v53 (F := Ideal) (X0 m c) (X1 m c) (X3 m c) (X4 m c) (X5 m c) (X6 m c) (X7 m c) (X8 m c) := by
    rw [v53_eq]
    refine Cert.Spec.lin_congr ?_ ?_ ?_ ?_
    · exact (W5_v29 m ρ c).trans (layer2 m ρ c)
    · exact (W5_v39 m ρ c).trans (congrArg (aggR · (X1 m c)) (layer2 m ρ c))
    · exact W5_v40 m ρ c
    · intro q; exact (W5_v41 m ρ c q).trans (v51_at (X8 m c) q).symm
  funext i
  unfold val_main_v56
  show _ = Ideal.hostScatterAdd _ _ _ _ i
  rw [Cert.ReferenceIdeal.ScatterRead.pool_scatter_apply, v54_at, zero_add, hl]
  refine Finset.sum_congr rfl fun r _ => ?_
  rw [show V5 m ρ c main_v42 (ix2 r 0) = X2 m c (ix1 r) from W5_v42 m ρ c r, v55_at]

/-- The kernel's result array is the reference's result, as functions of the launch contents. -/
theorem result (c : Dev nD) : W7 m ρ c (Proc.devRef .tc main_v57)
    = val_main_v70 (F := Ideal) (X0 m c) (X1 m c) (X2 m c) (X3 m c) (X4 m c) (X5 m c) (X6 m c) (X7 m c) (X8 m c) (X9 m c) (X10 m c) := by
  rw [W7_v57, pooled, Cert.ReferenceIdeal.Stages.v70_eq]

end Cert.KernelIdeal.Bridge

end
-- ==== Proof.lean ====
/-
  The kernel — a three-layer graph network with sum aggregation, a mean pool over graph ids and a linear head, its dense
  layers and its pooling reduction written as three pallas_calls — against its jnp reference, over the extended reals.

  The two programs share, operation for operation, the neighbourhood sums (a gather and a scatter-add along the edge
  list), the node counts, the division and the head. They differ in two places, and both are exact over the extended
  reals without any assumption on the inputs:
    • a layer's product (h + a) · Wᵀ + b is taken by the kernel in ten blocks of 10000 rows, by the reference whole:
      row by row it is one and the same contraction over the 128 input features;
    • the pooled sum is taken by the kernel as a product with the 0/1 matrix [id r = g], accumulated over the ten
      blocks into an array that the first block resets, and by the reference as a scatter-add by graph id: since
      0 · y = 0 and 1 · y = y for every extended real y and addition is commutative and associative, both are the sum of
      the last layer's rows whose id is g; an id outside 0 … 511 meets no column of the 0/1 matrix and lands on no
      row of the scatter-add.
  The ideal pass rewrote nothing, so the idealized kernel is the kernel's own text and `preserves` is `True`.
-/
import proofs.«429753_j10574209483251_2_alg».proof.Defs
import proofs.«429753_j10574209483251_2_alg».proof.Proof.Gen.Kernel
import proofs.«429753_j10574209483251_2_alg».proof.Proof.Gen.Kernel.Skeleton
import proofs.«429753_j10574209483251_2_alg».proof.Proof.Gen.Kernel.Launch
import proofs.«429753_j10574209483251_2_alg».proof.Proof.Gen.Kernel.Points
import proofs.«429753_j10574209483251_2_alg».proof.Proof.Gen.Kernel.Frame
import proofs.«429753_j10574209483251_2_alg».proof.Proof.Gen.KernelIdeal
import proofs.«429753_j10574209483251_2_alg».proof.Proof.Gen.KernelIdeal.Skeleton
import proofs.«429753_j10574209483251_2_alg».proof.Proof.Gen.KernelIdeal.Launch
import proofs.«429753_j10574209483251_2_alg».proof.Proof.Gen.KernelIdeal.Points
import proofs.«429753_j10574209483251_2_alg».proof.Proof.Gen.KernelIdeal.Frame
import proofs.«429753_j10574209483251_2_alg».proof.Proof.Gen.ReferenceIdeal
import proofs.«429753_j10574209483251_2_alg».proof.Proof.Gen.ReferenceIdeal.Run
import proofs.«429753_j10574209483251_2_alg».proof.Proof.Gen.ReferenceIdeal.Read
import proofs.«429753_j10574209483251_2_alg».proof.Proof.Gen.Pre_finite_inputs
import proofs.«429753_j10574209483251_2_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs to its operations' composed term of the arguments, which it leaves as launched. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs run, and the kernel's result array — the fold of its host
    operations and its three calls' write-backs from the launch memory — is the reference's composed term. -/
theorem algebraic : Cert.algebraic_KernelIdeal_ReferenceIdeal := by
  intro m ρ m' ρ' _ hagree
  refine ⟨fun c => Cert.KernelIdeal.Gen.W7 m ρ c (Proc.devRef .tc Cert.KernelIdeal.main_v57),
    Cert.KernelIdeal.RunP.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  rw [Cert.ReferenceIdeal.Read.val_main_v70_eq, e0, e1, e2, e3, e4, e5, e6, e7, e8, e9, e10]
  exact (Cert.KernelIdeal.Bridge.result m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
